-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2049x8193 : Shape := ⟨2, ![2049, 8193]⟩
abbrev S2049x2049 : Shape := ⟨2, ![2049, 2049]⟩
abbrev S_ : Shape := ⟨0, ![]⟩

class Facts : Prop where
  bcast_S_S2049x8193 : S_.BroadcastsInDim S2049x8193 (![] : Fin 0 → Fin S2049x8193.rank)
  reducesTo_S2049x8193_S_d0_1 : S2049x8193.ReducesTo [0, 1] S_
  h_S_ : 0 < S_.numel
  bcast_S_S2049x2049 : S_.BroadcastsInDim S2049x2049 (![] : Fin 0 → Fin S2049x2049.rank)
  reducesTo_S2049x2049_S_d0_1 : S2049x2049.ReducesTo [0, 1] S_

variable [Facts]

def fn_part1 {F : FTy → Type} [FloatOps F] (main_v13 : IVec S_ 1) (main_v16 : IVec S2049x2049 1) : IVec S_ 1 :=
  let main_c_5 : IVec S_ 1 := constantI S_ 1 1#1
  let main_v17 : IVec S_ 1 := (fun x v => Host.reduce IntOp.andi x v reducesTo_S2049x2049_S_d0_1 h_S_) main_v16 main_c_5
  let main_v18 : IVec S_ 1 := andi main_v13 main_v17
  main_v18

def fn {F : FTy → Type} [FloatOps F] (main_arg0 : FVec F S2049x8193 .f32) (main_arg1 : FVec F S2049x2049 .f32) (main_arg2 : FVec F S2049x2049 .f32) (main_arg3 : FVec F S2049x2049 .f32) : IVec S_ 1 :=
  let main_v0 : FVec F S2049x8193 .f32 := Host.absf main_arg0
  let main_cst : FVec F S_ .f32 := constant S_ .f32 0x7F800000#32
  let main_v1 : FVec F S2049x8193 .f32 := broadcastInDim S2049x8193 ![] bcast_S_S2049x8193 main_cst
  let main_v2 : IVec S2049x8193 1 := cmpf .olt main_v0 main_v1
  let main_c : IVec S_ 1 := constantI S_ 1 1#1
  let main_v3 : IVec S_ 1 := (fun x v => Host.reduce IntOp.andi x v reducesTo_S2049x8193_S_d0_1 h_S_) main_v2 main_c
  let main_v4 : FVec F S2049x2049 .f32 := Host.absf main_arg1
  let main_cst_0 : FVec F S_ .f32 := constant S_ .f32 0x7F800000#32
  let main_v5 : FVec F S2049x2049 .f32 := broadcastInDim S2049x2049 ![] bcast_S_S2049x2049 main_cst_0
  let main_v6 : IVec S2049x2049 1 := cmpf .olt main_v4 main_v5
  let main_c_1 : IVec S_ 1 := constantI S_ 1 1#1
  let main_v7 : IVec S_ 1 := (fun x v => Host.reduce IntOp.andi x v reducesTo_S2049x2049_S_d0_1 h_S_) main_v6 main_c_1
  let main_v8 : IVec S_ 1 := andi main_v3 main_v7
  let main_v9 : FVec F S2049x2049 .f32 := Host.absf main_arg2
  let main_cst_2 : FVec F S_ .f32 := constant S_ .f32 0x7F800000#32
  let main_v10 : FVec F S2049x2049 .f32 := broadcastInDim S2049x2049 ![] bcast_S_S2049x2049 main_cst_2
  let main_v11 : IVec S2049x2049 1 := cmpf .olt main_v9 main_v10
  let main_c_3 : IVec S_ 1 := constantI S_ 1 1#1
  let main_v12 : IVec S_ 1 := (fun x v => Host.reduce IntOp.andi x v reducesTo_S2049x2049_S_d0_1 h_S_) main_v11 main_c_3
  let main_v13 : IVec S_ 1 := andi main_v8 main_v12
  let main_v14 : FVec F S2049x2049 .f32 := Host.absf main_arg3
  let main_cst_4 : FVec F S_ .f32 := constant S_ .f32 0x7F800000#32
  let main_v15 : FVec F S2049x2049 .f32 := broadcastInDim S2049x2049 ![] bcast_S_S2049x2049 main_cst_4
  let main_v16 : IVec S2049x2049 1 := cmpf .olt main_v14 main_v15
  fn_part1 (F := F) main_v13 main_v16
-- ==== Kernel.lean ====
abbrev S2049x8193 : Shape := ⟨2, ![2049, 8193]⟩
abbrev S2049x2049 : Shape := ⟨2, ![2049, 2049]⟩
abbrev S2049x1 : Shape := ⟨2, ![2049, 1]⟩
abbrev S2049 : Shape := ⟨1, ![2049]⟩
abbrev S1x2049 : Shape := ⟨2, ![1, 2049]⟩
abbrev S2x2049 : Shape := ⟨2, ![2, 2049]⟩
abbrev S_ : Shape := ⟨0, ![]⟩
abbrev S2049x10240 : Shape := ⟨2, ![2049, 10240]⟩
abbrev S1x1 : Shape := ⟨2, ![1, 1]⟩
abbrev S2049x2048 : Shape := ⟨2, ![2049, 2048]⟩
abbrev S2x2048 : Shape := ⟨2, ![2, 2048]⟩
abbrev S1x2048 : Shape := ⟨2, ![1, 2048]⟩
abbrev S1 : Shape := ⟨1, ![1]⟩

abbrev nBuf : Space → Nat
  | .hbm => 14
  | .vmem => 10
  | .smem => 0
  | _ => 0

abbrev bufTy : (tb : Table) → Fin (tcTables nBuf tb) → BufTy
  | .hbm, ⟨0, _⟩ => ⟨S2049x8193, .f32⟩
  | .hbm, ⟨1, _⟩ => ⟨S2049x2049, .f32⟩
  | .hbm, ⟨2, _⟩ => ⟨S2049x2049, .f32⟩
  | .hbm, ⟨3, _⟩ => ⟨S2049x2049, .f32⟩
  | .hbm, ⟨4, _⟩ => ⟨S2049x1, .f32⟩
  | .hbm, ⟨5, _⟩ => ⟨S2049, .f32⟩
  | .hbm, ⟨6, _⟩ => ⟨S1x2049, .f32⟩
  | .hbm, ⟨7, _⟩ => ⟨S1x2049, .f32⟩
  | .hbm, ⟨8, _⟩ => ⟨S2x2049, .f32⟩
  | .hbm, ⟨9, _⟩ => ⟨S_, .i32⟩
  | .hbm, ⟨10, _⟩ => ⟨S_, .f32⟩
  | .hbm, ⟨11, _⟩ => ⟨S2049x10240, .f32⟩
  | .hbm, ⟨12, _⟩ => ⟨S1x1, .f32⟩
  | .hbm, ⟨13, _⟩ => ⟨S_, .f32⟩
  | .local _ .vmem, ⟨0, _⟩ => ⟨S2049x2049, .f32⟩
  | .local _ .vmem, ⟨1, _⟩ => ⟨S2049x2049, .f32⟩
  | .local _ .vmem, ⟨2, _⟩ => ⟨S1x2049, .f32⟩
  | .local _ .vmem, ⟨3, _⟩ => ⟨S1x2049, .f32⟩
  | .local _ .vmem, ⟨4, _⟩ => ⟨S2x2049, .f32⟩
  | .local _ .vmem, ⟨5, _⟩ => ⟨S2x2049, .f32⟩
  | .local _ .vmem, ⟨6, _⟩ => ⟨S2049x2048, .f32⟩
  | .local _ .vmem, ⟨7, _⟩ => ⟨S2049x2048, .f32⟩
  | .local _ .vmem, ⟨8, _⟩ => ⟨S1x1, .f32⟩
  | .local _ .vmem, ⟨9, _⟩ => ⟨S1x1, .f32⟩
  | _, _ => ⟨S2049x8193, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2049x2049 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2049x2049 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2049 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2049 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2049 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x2049 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2049x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2049x8193_S2049x1_0_8192 : S2049x8193.Slices ![0, 8192] S2049x1
  shapeCasts_S2049x1_S2049 : S2049x1.ShapeCasts S2049
  shapeCasts_S2049_S1x2049 : S2049.ShapeCasts S1x2049
  slices_S2049x2049_S1x2049_2048_0 : S2049x2049.Slices ![2048, 0] S1x2049
  inb_S2049x2049_S2049x2049_0_0 : ∀ a, (![0, 0] : Fin 2 → Nat) a + S2049x2049.size a ≤ S2049x2049.size a
  h_S2049x2049 : 0 < S2049x2049.numel
  bitsLt_bf16_f32 : FTy.bits .bf16 < FTy.bits .f32
  inb_S1x2049_S1x2049_0_0 : ∀ a, (![0, 0] : Fin 2 → Nat) a + S1x2049.size a ≤ S1x2049.size a
  h_S1x2049 : 0 < S1x2049.numel
  shapeCasts_S1x2049_S1x2049 : S1x2049.ShapeCasts S1x2049
  concatenates_S1x2049_S1x2049_S2x2049_d0 : Shape.Concatenates [S1x2049, S1x2049] S2x2049 0
  inb_S2x2049_S2x2049_0_0 : ∀ a, (![0, 0] : Fin 2 → Nat) a + S2x2049.size a ≤ S2x2049.size a
  h_S2x2049 : 0 < S2x2049.numel
  pads_S2049x8193_S2049x10240_000_020470 : S2049x8193.Pads (![0, 0] : Fin 2 → Nat) ![0, 2047] ![0, 0] S2049x10240
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S2x2049_S2x2049 : S2x2049.ShapeCasts S2x2049
  inb_S2049x2048_S2049x2048_0_0 : ∀ a, (![0, 0] : Fin 2 → Nat) a + S2049x2048.size a ≤ S2049x2048.size a
  h_S2049x2048 : 0 < S2049x2048.numel
  shapeCasts_S2049x2048_S2049x2048 : S2049x2048.ShapeCasts S2049x2048
  slices_S2x2048_o0_0_S1x2048 : S2x2048.Slices ![0, 0] S1x2048
  slices_S2x2048_o1_0_S1x2048 : S2x2048.Slices ![1, 0] S1x2048
  reduces_S1x2048_S1 : S1x2048.Reduces [1] S1
  shapeCasts_S1_S1x1 : S1.ShapeCasts S1x1
  shapeCasts_S1x1_S_ : S1x1.ShapeCasts S_
  dot_S1x2049_S2049x2049_S1x2049_1_1_0_0_n_n_wf : DotDims.WF S1x2049 S2049x2049 S1x2049 [1] [1] [0] [0] [] []
  dot_S1x2049_S2049x2049_S1x2049_1_0_0_1_n_n_wf : DotDims.WF S1x2049 S2049x2049 S1x2049 [1] [0] [0] [1] [] []
  dot_S2x2049_S2049x2048_S2x2048_1_0_0_1_n_n_wf : DotDims.WF S2x2049 S2049x2048 S2x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2049x2049.size a ≤ S2049x2049.size a
  hwx0_0 : ∀ i : grid0.Coords, EltTy.bits .f32 = 32 ∨ (Rect.block (s := S2049x2049) S2049x2049.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2049x2049.size a ≤ S2049x2049.size a
  hwx0_1 : ∀ i : grid0.Coords, EltTy.bits .f32 = 32 ∨ (Rect.block (s := S2049x2049) S2049x2049.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2049.size a ≤ S1x2049.size a
  hwx0_2 : ∀ i : grid0.Coords, EltTy.bits .f32 = 32 ∨ (Rect.block (s := S1x2049) S1x2049.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2049.size a ≤ S1x2049.size a
  hwx0_3 : ∀ i : grid0.Coords, EltTy.bits .f32 = 32 ∨ (Rect.block (s := S1x2049) S1x2049.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x2049.size a ≤ S2x2049.size a
  hwx0_4 : ∀ i : grid0.Coords, EltTy.bits .f32 = 32 ∨ (Rect.block (s := S2x2049) S2x2049.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x2049.size a ≤ S2x2049.size a
  hwx1_0 : ∀ i : grid1.Coords, EltTy.bits .f32 = 32 ∨ (Rect.block (s := S2x2049) S2x2049.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2049x2048.size a ≤ S2049x10240.size a
  hwx1_1 : ∀ i : grid1.Coords, EltTy.bits .f32 = 32 ∨ (Rect.block (s := S2049x10240) S2049x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S1x2049_S2049x2049_S1x2049_1_1_0_0_n_n : DotDims S1x2049 S2049x2049 S1x2049 where
  lhsContracting := [1]
  rhsContracting := [1]
  lhsNonContracting := [0]
  rhsNonContracting := [0]
  lhsBatch := []
  rhsBatch := []
  wf := dot_S1x2049_S2049x2049_S1x2049_1_1_0_0_n_n_wf
def dot_S1x2049_S2049x2049_S1x2049_1_0_0_1_n_n : DotDims S1x2049 S2049x2049 S1x2049 where
  lhsContracting := [1]
  rhsContracting := [0]
  lhsNonContracting := [0]
  rhsNonContracting := [1]
  lhsBatch := []
  rhsBatch := []
  wf := dot_S1x2049_S2049x2049_S1x2049_1_0_0_1_n_n_wf
def dot_S2x2049_S2049x2048_S2x2048_1_0_0_1_n_n : DotDims S2x2049 S2049x2048 S2x2048 where
  lhsContracting := [1]
  rhsContracting := [0]
  lhsNonContracting := [0]
  rhsNonContracting := [1]
  lhsBatch := []
  rhsBatch := []
  wf := dot_S2x2049_S2049x2048_S2x2048_1_0_0_1_n_n_wf

abbrev win0_0 : Pipeline.Window sig grid0 :=
  Pipeline.Window.ofSpec (Memref.whole main_arg3) S2049x2049.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2049x2049.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2049.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2049.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x2049.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S2x2049.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2049x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2049x8193 : Shape := ⟨2, ![2049, 8193]⟩
abbrev S2049x2049 : Shape := ⟨2, ![2049, 2049]⟩
abbrev S8193x2049 : Shape := ⟨2, ![8193, 2049]⟩
abbrev S8193x8193 : Shape := ⟨2, ![8193, 8193]⟩
abbrev S_ : Shape := ⟨0, ![]⟩
abbrev S1x1 : Shape := ⟨2, ![1, 1]⟩

abbrev nBuf : Space → Nat
  | .hbm => 15
  | .vmem => 0
  | .smem => 0
  | _ => 0

abbrev bufTy : (tb : Table) → Fin (tcTables nBuf tb) → BufTy
  | .hbm, ⟨0, _⟩ => ⟨S2049x8193, .f32⟩
  | .hbm, ⟨1, _⟩ => ⟨S2049x2049, .f32⟩
  | .hbm, ⟨2, _⟩ => ⟨S2049x2049, .f32⟩
  | .hbm, ⟨3, _⟩ => ⟨S2049x2049, .f32⟩
  | .hbm, ⟨4, _⟩ => ⟨S2049x8193, .f32⟩
  | .hbm, ⟨5, _⟩ => ⟨S2049x8193, .f32⟩
  | .hbm, ⟨6, _⟩ => ⟨S2049x8193, .f32⟩
  | .hbm, ⟨7, _⟩ => ⟨S8193x2049, .f32⟩
  | .hbm, ⟨8, _⟩ => ⟨S8193x8193, .f32⟩
  | .hbm, ⟨9, _⟩ => ⟨S_, .f32⟩
  | .hbm, ⟨10, _⟩ => ⟨S8193x8193, .f32⟩
  | .hbm, ⟨11, _⟩ => ⟨S8193x8193, .f32⟩
  | .hbm, ⟨12, _⟩ => ⟨S2049x8193, .f32⟩
  | .hbm, ⟨13, _⟩ => ⟨S1x1, .f32⟩
  | .hbm, ⟨14, _⟩ => ⟨S_, .f32⟩
  | _, _ => ⟨S2049x8193, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S2049x8193_S8193x2049_1_0 : S2049x8193.Transposes [1, 0] S8193x2049
  bcast_S_S8193x8193 : S_.BroadcastsInDim S8193x8193 (![] : Fin 0 → Fin S8193x8193.rank)
  slices_S2049x8193_S1x1_2048_8192 : S2049x8193.Slices ![2048, 8192] S1x1
  shapeCasts_S1x1_S_ : S1x1.ShapeCasts S_
  dot_S2049x2049_S2049x8193_S2049x8193_1_0_0_1_n_n_wf : DotDims.WF S2049x2049 S2049x8193 S2049x8193 [1] [0] [0] [1] [] []
  dot_S8193x2049_S2049x8193_S8193x8193_1_0_0_1_n_n_wf : DotDims.WF S8193x2049 S2049x8193 S8193x8193 [1] [0] [0] [1] [] []
  dot_S2049x8193_S8193x8193_S2049x8193_1_0_0_1_n_n_wf : DotDims.WF S2049x8193 S8193x8193 S2049x8193 [1] [0] [0] [1] [] []

variable [Facts₀]

def dot_S2049x2049_S2049x8193_S2049x8193_1_0_0_1_n_n : DotDims S2049x2049 S2049x8193 S2049x8193 where
  lhsContracting := [1]
  rhsContracting := [0]
  lhsNonContracting := [0]
  rhsNonContracting := [1]
  lhsBatch := []
  rhsBatch := []
  wf := dot_S2049x2049_S2049x8193_S2049x8193_1_0_0_1_n_n_wf
def dot_S8193x2049_S2049x8193_S8193x8193_1_0_0_1_n_n : DotDims S8193x2049 S2049x8193 S8193x8193 where
  lhsContracting := [1]
  rhsContracting := [0]
  lhsNonContracting := [0]
  rhsNonContracting := [1]
  lhsBatch := []
  rhsBatch := []
  wf := dot_S8193x2049_S2049x8193_S8193x8193_1_0_0_1_n_n_wf
def dot_S2049x8193_S8193x8193_S2049x8193_1_0_0_1_n_n : DotDims S2049x8193 S8193x8193 S2049x8193 where
  lhsContracting := [1]
  rhsContracting := [0]
  lhsNonContracting := [0]
  rhsNonContracting := [1]
  lhsBatch := []
  rhsBatch := []
  wf := dot_S2049x8193_S8193x8193_S2049x8193_1_0_0_1_n_n_wf

class Facts : Prop extends Facts₀ where

variable [Facts]
-- ==== Proof.R0W.lean ====
import proofs.«103635_j55800215109664_1_alg».proof.Proof.Gen.Kernel.Launch
import proofs.«103635_j55800215109664_1_alg».proof.Proof.Gen.Kernel.Skeleton
import proofs.«103635_j55800215109664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one grid point, four whole-array inputs, one whole-array output

The body loads `Q`, `K`, the last column of `Z` (as a row) and the last row of `V` whole, and stores once, whole, the 2 x 2049
matrix whose row 0 is that column pushed through `Qᵀ` and then `K` and whose row 1 is the row of `V`. Everything is stated at a
parameter `V`: what the core's buffers hold when the region is entered. -/

section Region0

variable (V : (c : Dev nD) → (b : Ref sig .tc) → Buf (Elt F) ((c : Thread nD τ).loc b))

/-- Window `w`'s block at the region's one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rSq0 : Rect S2049x2049 := Rect.unit (s := S2049x2049) ![0, 0] S2049x2049.size inb_S2049x2049_S2049x2049_0_0
abbrev rRow0 : Rect S1x2049 := Rect.unit (s := S1x2049) ![0, 0] S1x2049.size inb_S1x2049_S1x2049_0_0
abbrev rOut0 : Rect S2x2049 := Rect.unit (s := S2x2049) ![0, 0] S2x2049.size inb_S2x2049_S2x2049_0_0

/-- The output's staging buffer after the body, from the four input blocks: its one store, of the body's one payload. -/
def out0_4 (x0 x1 : Vec F S2049x2049 .f32) (x2 x3 : Vec F S1x2049 .f32) : Vec F S2x2049 .f32 :=
  View.canon [⟨rOut0, k0_pay1 (View.ld x0 rSq0) (View.ld x1 rSq0) (View.ld x2 rRow0) (View.ld x3 rRow0)⟩]

/-- The one store is of the whole buffer, so it covers it. -/
theorem cover0_4 (p0 : Vec F S2x2049 .f32) (y : S2x2049.Idx) :
    ∃ pc ∈ ([⟨rOut0, p0⟩] : List (View.Piece (Elt F) S2x2049 .f32)), y ∈ pc.1.set :=
  View.cover_of_tiled [⟨rOut0, p0⟩] S2x2049.size (by rfl) y

set_option maxHeartbeats 1000000 in
/-- The body on whole staging memrefs, the inputs' at contents `x0 … x3` and the output's at anything, runs to the
    continuation holding the inputs' as they were and the output's at `out0_4` of them. -/
theorem sound_kernel0 (c : Dev nD) (E : Set ℕ) (i : grid0.Coords)
    (arg1 : Memref sig .tc .vmem S2049x2049 .f32) (harg1 : arg1.IsWhole) (arg2 : Memref sig .tc .vmem S2049x2049 .f32) (harg2 : arg2.IsWhole)
    (arg3 : Memref sig .tc .vmem S1x2049 .f32) (harg3 : arg3.IsWhole) (arg4 : Memref sig .tc .vmem S1x2049 .f32) (harg4 : arg4.IsWhole)
    (arg5 : Memref sig .tc .vmem S2x2049 .f32) (harg5 : arg5.IsWhole)
    (x0 x1 : Vec F S2049x2049 .f32) (x2 x3 : Vec F S1x2049 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__form_m_kernel i arg1 harg1 arg2 harg2 arg3 harg3 arg4 harg4 arg5 harg5) K := by
  simp only [cc0__form_m_kernel_eq_skeleton]; unfold cc0__form_m_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Region 0's proof data on core `c`: the arrays as the region finds them; after the body each input's buffer at its block
    and the output's at `out0_4` of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at the point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at the region's point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.R1W.lean ====
import proofs.«103635_j55800215109664_1_alg».proof.Proof.Gen.Kernel.Launch
import proofs.«103635_j55800215109664_1_alg».proof.Proof.Gen.Kernel.Skeleton
import proofs.«103635_j55800215109664_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the tile-by-tile accumulation, at the contents `V` the core's buffers hold when the region is entered

The region walks five tiles of the padded matrix. A one-element scratch carries the running total: the first tile
resets it to zero and adds that tile's sum, every later tile adds its own sum to what the tile before left, and the
last tile also stores the total, scaled, into the one-element output block. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two stacked rows (window 0's block: the same 2 x 2049 matrix at every point). -/
abbrev mblk (c : Dev nD) (t : Fin cfg1.N) : Vec F S2x2049 .f32 := iblk1 V c 0 t
/-- Tile `t` of the padded matrix (window 1's block: columns 2048 t … 2048 t + 2047). -/
abbrev zblk (c : Dev nD) (t : Fin cfg1.N) : Vec F S2049x2048 .f32 := iblk1 V c 1 t

/-- Window 0's staging buffer holds its block at every point: it is fetched at the first point only, its block index
    never moves, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current staging buffer holds the point's tile at every point (fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions over the grid -/

/-- "This is the first tile": the condition under which the running total is reset. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- "This is the last tile": the condition under which the scaled total is stored into the output block. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the output block is stored -/

/-- The two input windows are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first tile nothing is stored into the output block and it is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Nor at the middle tiles. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last tile it is stored. -/
theorem liveAt1_2_C : ∀ t : Fin cfg1.N, ¬cond1_0 (grid1.coords t) → cond1_1 (grid1.coords t) → cfg1.idle 2 (grid1.coords t) = false := by decide +kernel

/-! ## The memrefs the body is called with -/

/-- The output block's staging buffer as a view: its contents are stated through it. -/
abbrev VO1_2 : View sig .tc .vmem S1x1 .f32 := (Memref.whole cc1_stg2_0 : Memref sig .tc .vmem S1x1 .f32).view
abbrev ms1_0 (t : Fin cfg1.N) : Memref sig .tc .vmem S2x2049 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2049x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The scratch holding the running total. -/
abbrev scM1_0 : Memref sig .tc .vmem S1x1 .f32 := Memref.whole cc1_scratch0
abbrev VS1_0 : View sig .tc .vmem S1x1 .f32 := scM1_0.view

/-- A scoped buffer of the core that this region never touches, whole at some contents. -/
abbrev held1 (c : Dev nD) (b : Ref sig .tc) : sProp 𝕄 :=
  iprop(∃ f : Buf (Elt F) ((c : Thread nD τ).loc b), ((c : Thread nD τ).loc b) ↦{fullShare} f)

/-- What the region is entered with besides its windows: the five scoped buffers of the other kernel, untouched here,
    the scratch at some contents, and the generator register. -/
theorem PhiA1_eq (c : Dev nD) :
    (Pipeline.ΦA spec1 c : sProp 𝕄)
      = iprop(iprop(held1 c cc0_stg0_0 ∗ held1 c cc0_stg1_0 ∗ held1 c cc0_stg2_0 ∗ held1 c cc0_stg3_0 ∗ held1 c cc0_stg4_0
          ∗ (∃ d, owns (c : Thread nD τ) scM1_0 fullShare d)) ∗ (∃ r, prngReg c r)) := by
  unfold Pipeline.ΦA; rw [scopedRest1_eq]; simp only [scM1_0, owns_whole]; try rfl

/-! ## The body's run, case by case

Case A is the first tile (the reset is taken, the final store is not), case B the middle tiles (neither), case C the
last tile (the final store only). Each run ends with, per buffer the body stores into, the list of pieces it wrote. -/

set_option maxHeartbeats 1000000 in
/-- The first tile. The scratch may hold anything: the body loads it without using the value, stores zero, loads
    that back and stores zero plus this tile's sum (two pieces, the later covering). The output block is left as found. -/
noncomputable def kernelRun1_A (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S2x2049 .f32) (x1 : Vec F S2049x2048 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__main_kernel i arg1 harg1 arg2 harg2 arg3 harg3 arg4 harg4) K } := by
  refine ⟨[], ?_, fun xi2 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A middle tile. The scratch holds what the tile before left (`xs0`): the body loads it, adds this tile's sum and
    stores the result (one piece). The output block is left as found. -/
noncomputable def kernelRun1_B (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S2x2049 .f32) (x1 : Vec F S2049x2048 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__main_kernel i arg1 harg1 arg2 harg2 arg3 harg3 arg4 harg4) K } := by
  refine ⟨[], ?_, fun xi2 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- The last tile. As a middle tile for the scratch; then the body loads the new total back and stores it, scaled,
    into the output block (one piece), whatever that block held. -/
noncomputable def kernelRun1_C (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S2x2049 .f32) (x1 : Vec F S2049x2048 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__main_kernel i arg1 harg1 arg2 harg2 arg3 harg3 arg4 harg4) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the scratch and in the output block -/

/-- The first tile stores nothing into the output block: no pieces (a placeholder that nothing consults, since at
    that point the block is neither written back nor read at the next point). -/
def out1_A_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) : Vec F S1x1 .f32 :=
  VO1_2.read (Elt F) (VO1_2.writes (Elt F) VO1_2.junk (kernelRun1_A c i arg1 harg1 arg2 harg2 arg3 harg3 arg4 harg4 hc0 hc1 x0 x1).1)

/-- The first tile's pieces for the scratch cover it. -/
theorem scover1_A_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What the first tile leaves in the scratch: its pieces read back. -/
def sout1_A_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) : Vec F S1x1 .f32 :=
  VS1_0.read (Elt F) (VS1_0.writes (Elt F) VS1_0.junk (kernelRun1_A c i arg1 harg1 arg2 harg2 arg3 harg3 arg4 harg4 hc0 hc1 x0 x1).2.1)

/-- A middle tile stores nothing into the output block either. -/
def out1_B_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

/-- A middle tile's one piece for the scratch covers it. -/
theorem scover1_B_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

/-- What a middle tile leaves in the scratch. -/
def sout1_B_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- The last tile's one piece for the output block covers it. -/
theorem cover1_C_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

/-- What the last tile leaves in the output block. -/
def out1_C_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

/-- The last tile's one piece for the scratch covers it. -/
theorem scover1_C_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

/-- What the last tile leaves in the scratch. -/
def sout1_C_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## The accumulation, point by point -/

/-- What the output block's staging buffer and the scratch hold after the body at point `n`: the case the point is
    in, run on the point's two blocks, a later tile over what the tile before left in the scratch. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 5 = 0 then
      if h1 : (n + 1) % 5 = 4 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 5 = 4 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first tile. -/
theorem outsAt1_A (c : Dev nD) (t : Fin cfg1.N) (h0 : t.val % 5 = 0) (h1 : ¬t.val % 5 = 4) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle tile: over what the tile before left. -/
theorem outsAt1_B (c : Dev nD) (t : Fin cfg1.N) (h0 : ¬t.val % 5 = 0) (h1 : ¬t.val % 5 = 4) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last tile: over what the tile before left. -/
theorem outsAt1_C (c : Dev nD) (t : Fin cfg1.N) (h0 : ¬t.val % 5 = 0) (h1 : t.val % 5 = 4) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point, what the region is entered with; after point `n`, the same with the scratch at the
    running total that point left. -/
def PhiS1 (c : Dev nD) : (n : ℕ) → n ≤ cfg1.N → sProp 𝕄
  | 0, _ => Pipeline.ΦA spec1 c
  | n + 1, hn => iprop(iprop(held1 c cc0_stg0_0 ∗ held1 c cc0_stg1_0 ∗ held1 c cc0_stg2_0 ∗ held1 c cc0_stg3_0 ∗ held1 c cc0_stg4_0
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(held1 c cc0_stg0_0 ∗ held1 c cc0_stg1_0 ∗ held1 c cc0_stg2_0 ∗ held1 c cc0_stg3_0 ∗ held1 c cc0_stg4_0
      ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(held1 c cc0_stg0_0 ∗ held1 c cc0_stg1_0 ∗ held1 c cc0_stg2_0 ∗ held1 c cc0_stg3_0 ∗ held1 c cc0_stg4_0
      ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a point each input's buffer at its block and the output
    block's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two inputs' buffers hold the point's blocks; the point is the first tile, a middle
    tile or the last tile, and that case's run applies: the invariant hands it the scratch (at anything before the
    first tile, at the running total afterwards) and takes it back at the new total; the five buffers of the other
    kernel and the generator register ride along; the output block is handed back as found except at the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  by_cases h0 : t.val % 5 = 0
  · by_cases h1 : t.val % 5 = 4
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha0, Ha1, Ha2, Ha3, Ha4, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨Ha0, Ha1, Ha2, Ha3, Ha4, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Ha0, Ha1, Ha2, Ha3, Ha4, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: the running total's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, HS0⟩, Hg⟩
  isplitl [Ha0 Ha1 Ha2 Ha3 Ha4 HS0]
  · isplitl [Ha0]; · iexact Ha0
    isplitl [Ha1]; · iexact Ha1
    isplitl [Ha2]; · iexact Ha2
    isplitl [Ha3]; · iexact Ha3
    isplitl [Ha4]; · iexact Ha4
    iexists _; iexact HS0
  iexact Hg

/-- In particular after the last point. -/
theorem hout1 (c : Dev nD) : (dat1 V c).Φ (Fin.last cfg1.N) ⊢ Pipeline.ΦA spec1 c :=
  Phi_out1 V c _ (by rw [Fin.val_last]; have : cfg1.N = 5 := N_1; omega)

end Cert.Kernel.Hand

end
-- ==== Proof.FoldW.lean ====
import proofs.«103635_j55800215109664_1_alg».proof.Proof.Gen.Kernel.Launch
import proofs.«103635_j55800215109664_1_alg».proof.Proof.Gen.Kernel.Skeleton
import proofs.«103635_j55800215109664_1_alg».proof.Proof.Gen.Kernel.Points
import proofs.«103635_j55800215109664_1_alg».proof.Proof.R0W
import proofs.«103635_j55800215109664_1_alg».proof.Proof.R1W
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every boundary of @main

@main is: four host operations (the last column of `Z` as a row, the last row of `V`), region 0, one constant, the two
operations of the padding, region 1, one reshape. The contents of the core's unscoped buffers after each of these six items are
a fold from the launch memory: a host stretch applies its operations; a region leaves its arrays at what its write-backs made
of them and every other buffer alone. -/

variable (m : (ℓ : Loc nD τ sig) → Buf (Elt F) ℓ)

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its output array at what the one write-back leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the constant. -/
abbrev W3 : Dev nD → Valuation τ sig (Elt F) := fun c => StableHlo.after hostOps1 (W2 m c)
/-- After the padding: region 1's entry. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit: its output array at what the last point's write-back leaves, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the final reshape: what @main returns with. -/
abbrev W6 : Dev nD → Valuation τ sig (Elt F) := fun c => StableHlo.after hostOps2 (W5 m c)

end Cert.Kernel.Hand

end
-- ==== Proof.RunW.lean ====
import proofs.«103635_j55800215109664_1_alg».proof.Proof.FoldW
import proofs.«103635_j55800215109664_1_alg».proof.Proof.Gen.Kernel.Launch
import proofs.«103635_j55800215109664_1_alg».proof.Proof.Gen.Kernel.Skeleton
import proofs.«103635_j55800215109664_1_alg».proof.Proof.Gen.Kernel.Points
import proofs.«103635_j55800215109664_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch: @main as a list of segments

A *segment* is one item of @main as the several-regions launch sees it: either a stretch of host operations run one after
another, or one kernel region (a `custom_call` entering a pipeline). @main here is six of them: the four operations that cut
the last column of `Z` and the last row of `V`, region 0, the constant, the two operations of the padding, region 1, the final
reshape.

Between two segments the TensorCore thread of core `c` holds the same three things, and only the contents change: every
unscoped buffer whole, at the contents the fold `W0 … W6` names for that boundary; the core's generator register at some state;
and the core's dues, at nothing. A host stretch moves the buffers from `W` to `StableHlo.after ops W` and passes the rest
along. A region takes its windows' arrays out of the buffers, lends the register (and the scoped buffers no window stages) to
its invariant for the length of the grid, and at its exit puts the arrays back at what its write-backs left, every other
buffer as entered. -/

variable (m : (ℓ : Loc nD τ sig) → Buf (Elt F) ℓ) (ρ : Dev nD → PrngReg)

/-! ## The arguments end as launched

No host operation writes an argument and no region has one as an output window: region 0 reads `main_arg3` and `main_arg2`
through input windows (whose arrays the pipeline leaves as entered), and no region touches `main_arg0` or `main_arg1`. So the
fold at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := (W2_arr m c 0).trans (((dat0 (V1 m) c).arrAt_in 0 rfl _).trans (A_eq0 (V1 m) c 0))
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents: a literal `match`, so that at a numeral the family
    reduces to the region's own data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- A host stretch as a segment over the unscoped references, from the contents `W`, `R` riding along: it leaves those
    references at `StableHlo.after ops (W c)`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues (the launch's chain ends at it beside the core owing nothing): every unscoped
    buffer at the last boundary's contents `W6`, the generator register at some state. -/
abbrev Tₙ (c : Dev nD) : sProp 𝕄 := iprop(StableHlo.held (c : Thread nD τ) (Pipeline.ucRefs τ sig) (W6 m c) ∗ ∃ r, prngReg c r)

/-- What the last host stretch leaves is the last thread state beside the core owing nothing: the same three conjuncts,
    grouped the other way. -/
theorem last_post (c : Dev nD) :
    iprop(StableHlo.held (c : Thread nD τ) (Pipeline.ucRefs τ sig) (W6 m c) ∗ (∃ r, prngReg c r) ∗ ∃ W, owes (c : Thread nD τ) (0 : CellTallies nD τ sig Unit) W)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The regions as segments -/

-- a library lemma stated over `pin pcs a p` meets the pinned configuration only when unification may unfold plain
-- definitions in a metavariable's type
set_option backward.isDefEq.respectTransparency.types false in
/-- Region 0 over the thread state: entered from every unscoped buffer at `W1`, left at `W2`. Its five arrays are split out
    of the unscoped buffers and put back at the exit contents; the generator register goes into the invariant (which is the
    scoped rest beside the register, at every point) and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- Region 1 over the thread state: entered from every unscoped buffer at `W4`, left at `W5`. As region 0, except that its
    invariant is not the same at every point (it carries the scratch accumulator across the grid): the scoped rest and the
    register make the invariant at the first point (`hin1`), and the invariant at the last point gives them back (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V4 m) c)
    unfold Pipeline.ΦA
    iintro ⟨Hp, -, Hr⟩
    isplitl [Hr]; · iexact Hr
    iexact Hp
  hout c := by
    rw [Pipeline.ownSems0_none]
    refine BIBase.Entails.trans (hout1 (V4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

-- the launch's implicit arguments are found by unifying its conclusion with this one, which takes unfolding plain
-- definitions in a metavariable's type
set_option backward.isDefEq.respectTransparency.types false in
/-- The whole run: from any memory `m` with zero counters, every weakly fair execution of @main on the TensorCores
    terminates, nothing faulting, and every final memory holds each unscoped buffer at the fold's last contents `W6`. The
    launch over the segments: the thread states chain (each segment is entered from what the one before it left, by name);
    the first is made from what the launch deals; the last is read against the final state. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every weakly fair execution of @main terminates, nothing faulting, and every final memory holds the four
    argument arrays as launched: each is an unscoped buffer, which the run leaves at `W6`, and the fold at an argument walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.Kernel.Hand

end
-- ==== Proof.R0.lean ====
import proofs.«103635_j55800215109664_1_alg».proof.Proof.Gen.KernelIdeal.Launch
import proofs.«103635_j55800215109664_1_alg».proof.Proof.Gen.KernelIdeal.Skeleton
import proofs.«103635_j55800215109664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: one grid point, four whole-array inputs, one whole-array output

The body loads `Q`, `K`, the last column of `Z` (as a row) and the last row of `V` whole, and stores once, whole, the 2 x 2049
matrix whose row 0 is that column pushed through `Qᵀ` and then `K` and whose row 1 is the row of `V`. Everything is stated at a
parameter `V`: what the core's buffers hold when the region is entered. -/

section Region0

variable (V : (c : Dev nD) → (b : Ref sig .tc) → Buf (Elt F) ((c : Thread nD τ).loc b))

/-- Window `w`'s block at the region's one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev rSq0 : Rect S2049x2049 := Rect.unit (s := S2049x2049) ![0, 0] S2049x2049.size inb_S2049x2049_S2049x2049_0_0
abbrev rRow0 : Rect S1x2049 := Rect.unit (s := S1x2049) ![0, 0] S1x2049.size inb_S1x2049_S1x2049_0_0
abbrev rOut0 : Rect S2x2049 := Rect.unit (s := S2x2049) ![0, 0] S2x2049.size inb_S2x2049_S2x2049_0_0

/-- The output's staging buffer after the body, from the four input blocks: its one store, of the body's one payload. -/
def out0_4 (x0 x1 : Vec F S2049x2049 .f32) (x2 x3 : Vec F S1x2049 .f32) : Vec F S2x2049 .f32 :=
  View.canon [⟨rOut0, k0_pay1 (View.ld x0 rSq0) (View.ld x1 rSq0) (View.ld x2 rRow0) (View.ld x3 rRow0)⟩]

/-- The one store is of the whole buffer, so it covers it. -/
theorem cover0_4 (p0 : Vec F S2x2049 .f32) (y : S2x2049.Idx) :
    ∃ pc ∈ ([⟨rOut0, p0⟩] : List (View.Piece (Elt F) S2x2049 .f32)), y ∈ pc.1.set :=
  View.cover_of_tiled [⟨rOut0, p0⟩] S2x2049.size (by rfl) y

set_option maxHeartbeats 1000000 in
/-- The body on whole staging memrefs, the inputs' at contents `x0 … x3` and the output's at anything, runs to the
    continuation holding the inputs' as they were and the output's at `out0_4` of them. -/
theorem sound_kernel0 (c : Dev nD) (E : Set ℕ) (i : grid0.Coords)
    (arg1 : Memref sig .tc .vmem S2049x2049 .f32) (harg1 : arg1.IsWhole) (arg2 : Memref sig .tc .vmem S2049x2049 .f32) (harg2 : arg2.IsWhole)
    (arg3 : Memref sig .tc .vmem S1x2049 .f32) (harg3 : arg3.IsWhole) (arg4 : Memref sig .tc .vmem S1x2049 .f32) (harg4 : arg4.IsWhole)
    (arg5 : Memref sig .tc .vmem S2x2049 .f32) (harg5 : arg5.IsWhole)
    (x0 x1 : Vec F S2049x2049 .f32) (x2 x3 : Vec F S1x2049 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__form_m_kernel i arg1 harg1 arg2 harg2 arg3 harg3 arg4 harg4 arg5 harg5) K := by
  simp only [cc0__form_m_kernel_eq_skeleton]; unfold cc0__form_m_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Region 0's proof data on core `c`: the arrays as the region finds them; after the body each input's buffer at its block
    and the output's at `out0_4` of the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at the point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at the region's point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1.lean ====
import proofs.«103635_j55800215109664_1_alg».proof.Proof.Gen.KernelIdeal.Launch
import proofs.«103635_j55800215109664_1_alg».proof.Proof.Gen.KernelIdeal.Skeleton
import proofs.«103635_j55800215109664_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the tile-by-tile accumulation, at the contents `V` the core's buffers hold when the region is entered

The region walks five tiles of the padded matrix. A one-element scratch carries the running total: the first tile
resets it to zero and adds that tile's sum, every later tile adds its own sum to what the tile before left, and the
last tile also stores the total, scaled, into the one-element output block. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two stacked rows (window 0's block: the same 2 x 2049 matrix at every point). -/
abbrev mblk (c : Dev nD) (t : Fin cfg1.N) : Vec F S2x2049 .f32 := iblk1 V c 0 t
/-- Tile `t` of the padded matrix (window 1's block: columns 2048 t … 2048 t + 2047). -/
abbrev zblk (c : Dev nD) (t : Fin cfg1.N) : Vec F S2049x2048 .f32 := iblk1 V c 1 t

/-- Window 0's staging buffer holds its block at every point: it is fetched at the first point only, its block index
    never moves, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1's current staging buffer holds the point's tile at every point (fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions over the grid -/

/-- "This is the first tile": the condition under which the running total is reset. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- "This is the last tile": the condition under which the scaled total is stored into the output block. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the output block is stored -/

/-- The two input windows are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first tile nothing is stored into the output block and it is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- Nor at the middle tiles. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last tile it is stored. -/
theorem liveAt1_2_C : ∀ t : Fin cfg1.N, ¬cond1_0 (grid1.coords t) → cond1_1 (grid1.coords t) → cfg1.idle 2 (grid1.coords t) = false := by decide +kernel

/-! ## The memrefs the body is called with -/

/-- The output block's staging buffer as a view: its contents are stated through it. -/
abbrev VO1_2 : View sig .tc .vmem S1x1 .f32 := (Memref.whole cc1_stg2_0 : Memref sig .tc .vmem S1x1 .f32).view
abbrev ms1_0 (t : Fin cfg1.N) : Memref sig .tc .vmem S2x2049 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2049x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The scratch holding the running total. -/
abbrev scM1_0 : Memref sig .tc .vmem S1x1 .f32 := Memref.whole cc1_scratch0
abbrev VS1_0 : View sig .tc .vmem S1x1 .f32 := scM1_0.view

/-- A scoped buffer of the core that this region never touches, whole at some contents. -/
abbrev held1 (c : Dev nD) (b : Ref sig .tc) : sProp 𝕄 :=
  iprop(∃ f : Buf (Elt F) ((c : Thread nD τ).loc b), ((c : Thread nD τ).loc b) ↦{fullShare} f)

/-- What the region is entered with besides its windows: the five scoped buffers of the other kernel, untouched here,
    the scratch at some contents, and the generator register. -/
theorem PhiA1_eq (c : Dev nD) :
    (Pipeline.ΦA spec1 c : sProp 𝕄)
      = iprop(iprop(held1 c cc0_stg0_0 ∗ held1 c cc0_stg1_0 ∗ held1 c cc0_stg2_0 ∗ held1 c cc0_stg3_0 ∗ held1 c cc0_stg4_0
          ∗ (∃ d, owns (c : Thread nD τ) scM1_0 fullShare d)) ∗ (∃ r, prngReg c r)) := by
  unfold Pipeline.ΦA; rw [scopedRest1_eq]; simp only [scM1_0, owns_whole]; try rfl

/-! ## The body's run, case by case

Case A is the first tile (the reset is taken, the final store is not), case B the middle tiles (neither), case C the
last tile (the final store only). Each run ends with, per buffer the body stores into, the list of pieces it wrote. -/

set_option maxHeartbeats 1000000 in
/-- The first tile. The scratch may hold anything: the body loads it without using the value, stores zero, loads
    that back and stores zero plus this tile's sum (two pieces, the later covering). The output block is left as found. -/
noncomputable def kernelRun1_A (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S2x2049 .f32) (x1 : Vec F S2049x2048 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__main_kernel i arg1 harg1 arg2 harg2 arg3 harg3 arg4 harg4) K } := by
  refine ⟨[], ?_, fun xi2 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A middle tile. The scratch holds what the tile before left (`xs0`): the body loads it, adds this tile's sum and
    stores the result (one piece). The output block is left as found. -/
noncomputable def kernelRun1_B (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S2x2049 .f32) (x1 : Vec F S2049x2048 .f32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc1__main_kernel i arg1 harg1 arg2 harg2 arg3 harg3 arg4 harg4) K } := by
  refine ⟨[], ?_, fun xi2 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- The last tile. As a middle tile for the scratch; then the body loads the new total back and stores it, scaled,
    into the output block (one piece), whatever that block held. -/
noncomputable def kernelRun1_C (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S2x2049 .f32) (x1 : Vec F S2049x2048 .f32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc1__main_kernel i arg1 harg1 arg2 harg2 arg3 harg3 arg4 harg4) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

/-! ## What each case leaves in the scratch and in the output block -/

/-- The first tile stores nothing into the output block: no pieces (a placeholder that nothing consults, since at
    that point the block is neither written back nor read at the next point). -/
def out1_A_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) : Vec F S1x1 .f32 :=
  VO1_2.read (Elt F) (VO1_2.writes (Elt F) VO1_2.junk (kernelRun1_A c i arg1 harg1 arg2 harg2 arg3 harg3 arg4 harg4 hc0 hc1 x0 x1).1)

/-- The first tile's pieces for the scratch cover it. -/
theorem scover1_A_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) (y : S1x1.Idx) :
    ∃ pc ∈ (kernelRun1_A c i arg1 harg1 arg2 harg2 arg3 harg3 arg4 harg4 hc0 hc1 x0 x1).2.1, y ∈ pc.1.set :=
  View.cover_of_tiledL (kernelRun1_A c i arg1 harg1 arg2 harg2 arg3 harg3 arg4 harg4 hc0 hc1 x0 x1).2.1 S1x1.size (by sl_kernel_rfl) y

/-- What the first tile leaves in the scratch: its pieces read back. -/
def sout1_A_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) : Vec F S1x1 .f32 :=
  VS1_0.read (Elt F) (VS1_0.writes (Elt F) VS1_0.junk (kernelRun1_A c i arg1 harg1 arg2 harg2 arg3 harg3 arg4 harg4 hc0 hc1 x0 x1).2.1)

/-- A middle tile stores nothing into the output block either. -/
def out1_B_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) : Vec F S1x1 .f32 :=
  VO1_2.read (Elt F) (VO1_2.writes (Elt F) VO1_2.junk (kernelRun1_B c i arg1 harg1 arg2 harg2 arg3 harg3 arg4 harg4 hc0 hc1 x0 x1 xs0).1)

/-- A middle tile's one piece for the scratch covers it. -/
theorem scover1_B_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) (y : S1x1.Idx) :
    ∃ pc ∈ (kernelRun1_B c i arg1 harg1 arg2 harg2 arg3 harg3 arg4 harg4 hc0 hc1 x0 x1 xs0).2.1, y ∈ pc.1.set :=
  View.cover_of_tiledL (kernelRun1_B c i arg1 harg1 arg2 harg2 arg3 harg3 arg4 harg4 hc0 hc1 x0 x1 xs0).2.1 S1x1.size (by sl_kernel_rfl) y

/-- What a middle tile leaves in the scratch. -/
def sout1_B_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) : Vec F S1x1 .f32 :=
  VS1_0.read (Elt F) (VS1_0.writes (Elt F) VS1_0.junk (kernelRun1_B c i arg1 harg1 arg2 harg2 arg3 harg3 arg4 harg4 hc0 hc1 x0 x1 xs0).2.1)

/-- The last tile's one piece for the output block covers it. -/
theorem cover1_C_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) (y : S1x1.Idx) :
    ∃ pc ∈ (kernelRun1_C c i arg1 harg1 arg2 harg2 arg3 harg3 arg4 harg4 hc0 hc1 x0 x1 xs0).1, y ∈ pc.1.set :=
  View.cover_of_tiledL (kernelRun1_C c i arg1 harg1 arg2 harg2 arg3 harg3 arg4 harg4 hc0 hc1 x0 x1 xs0).1 S1x1.size (by sl_kernel_rfl) y

/-- What the last tile leaves in the output block. -/
def out1_C_2 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) : Vec F S1x1 .f32 :=
  VO1_2.read (Elt F) (VO1_2.writes (Elt F) VO1_2.junk (kernelRun1_C c i arg1 harg1 arg2 harg2 arg3 harg3 arg4 harg4 hc0 hc1 x0 x1 xs0).1)

/-- The last tile's one piece for the scratch covers it. -/
theorem scover1_C_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) (y : S1x1.Idx) :
    ∃ pc ∈ (kernelRun1_C c i arg1 harg1 arg2 harg2 arg3 harg3 arg4 harg4 hc0 hc1 x0 x1 xs0).2.1, y ∈ pc.1.set :=
  View.cover_of_tiledL (kernelRun1_C c i arg1 harg1 arg2 harg2 arg3 harg3 arg4 harg4 hc0 hc1 x0 x1 xs0).2.1 S1x1.size (by sl_kernel_rfl) y

/-- What the last tile leaves in the scratch. -/
def sout1_C_0 (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) : Vec F S1x1 .f32 :=
  VS1_0.read (Elt F) (VS1_0.writes (Elt F) VS1_0.junk (kernelRun1_C c i arg1 harg1 arg2 harg2 arg3 harg3 arg4 harg4 hc0 hc1 x0 x1 xs0).2.1)

/-! ## The accumulation, point by point -/

/-- What the output block's staging buffer and the scratch hold after the body at point `n`: the case the point is
    in, run on the point's two blocks, a later tile over what the tile before left in the scratch. -/
def outsAt1 (c : Dev nD) : (n : ℕ) → n < cfg1.N → Vec F S1x1 .f32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 5 = 0 then
      if h1 : (n + 1) % 5 = 4 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 5 = 4 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at the first tile. -/
theorem outsAt1_A (c : Dev nD) (t : Fin cfg1.N) (h0 : t.val % 5 = 0) (h1 : ¬t.val % 5 = 4) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle tile: over what the tile before left. -/
theorem outsAt1_B (c : Dev nD) (t : Fin cfg1.N) (h0 : ¬t.val % 5 = 0) (h1 : ¬t.val % 5 = 4) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last tile: over what the tile before left. -/
theorem outsAt1_C (c : Dev nD) (t : Fin cfg1.N) (h0 : ¬t.val % 5 = 0) (h1 : t.val % 5 = 4) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point, what the region is entered with; after point `n`, the same with the scratch at the
    running total that point left. -/
def PhiS1 (c : Dev nD) : (n : ℕ) → n ≤ cfg1.N → sProp 𝕄
  | 0, _ => Pipeline.ΦA spec1 c
  | n + 1, hn => iprop(iprop(held1 c cc0_stg0_0 ∗ held1 c cc0_stg1_0 ∗ held1 c cc0_stg2_0 ∗ held1 c cc0_stg3_0 ∗ held1 c cc0_stg4_0
      ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(held1 c cc0_stg0_0 ∗ held1 c cc0_stg1_0 ∗ held1 c cc0_stg2_0 ∗ held1 c cc0_stg3_0 ∗ held1 c cc0_stg4_0
      ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(held1 c cc0_stg0_0 ∗ held1 c cc0_stg1_0 ∗ held1 c cc0_stg2_0 ∗ held1 c cc0_stg3_0 ∗ held1 c cc0_stg4_0
      ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The arrays as the region finds them; after the body at a point each input's buffer at its block and the output
    block's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The two inputs' buffers hold the point's blocks; the point is the first tile, a middle
    tile or the last tile, and that case's run applies: the invariant hands it the scratch (at anything before the
    first tile, at the running total afterwards) and takes it back at the new total; the five buffers of the other
    kernel and the generator register ride along; the output block is handed back as found except at the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 5 := lt_of_lt_of_eq t.isLt (show cfg1.N = 5 from N_1)
  by_cases h0 : t.val % 5 = 0
  · by_cases h1 : t.val % 5 = 4
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨Ha0, Ha1, Ha2, Ha3, Ha4, HS0⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 5 = 4
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨Ha0, Ha1, Ha2, Ha3, Ha4, HS0⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨Ha0, Ha1, Ha2, Ha3, Ha4, HS0⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Ha0 Ha1 Ha2 Ha3 Ha4 HS0 Hg]
        · isplitl [Ha0 Ha1 Ha2 Ha3 Ha4 HS0]
          · isplitl [Ha0]; · iexact Ha0
            isplitl [Ha1]; · iexact Ha1
            isplitl [Ha2]; · iexact Ha2
            isplitl [Ha3]; · iexact Ha3
            isplitl [Ha4]; · iexact Ha4
            unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: the running total's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha0, Ha1, Ha2, Ha3, Ha4, HS0⟩, Hg⟩
  isplitl [Ha0 Ha1 Ha2 Ha3 Ha4 HS0]
  · isplitl [Ha0]; · iexact Ha0
    isplitl [Ha1]; · iexact Ha1
    isplitl [Ha2]; · iexact Ha2
    isplitl [Ha3]; · iexact Ha3
    isplitl [Ha4]; · iexact Ha4
    iexists _; iexact HS0
  iexact Hg

/-- In particular after the last point. -/
theorem hout1 (c : Dev nD) : (dat1 V c).Φ (Fin.last cfg1.N) ⊢ Pipeline.ΦA spec1 c :=
  Phi_out1 V c _ (by rw [Fin.val_last]; have : cfg1.N = 5 := N_1; omega)

end Cert.KernelIdeal.Hand

end
-- ==== Proof.Fold.lean ====
import proofs.«103635_j55800215109664_1_alg».proof.Proof.Gen.KernelIdeal.Launch
import proofs.«103635_j55800215109664_1_alg».proof.Proof.Gen.KernelIdeal.Skeleton
import proofs.«103635_j55800215109664_1_alg».proof.Proof.Gen.KernelIdeal.Points
import proofs.«103635_j55800215109664_1_alg».proof.Proof.R0
import proofs.«103635_j55800215109664_1_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every boundary of @main

@main is: four host operations (the last column of `Z` as a row, the last row of `V`), region 0, one constant, the two
operations of the padding, region 1, one reshape. The contents of the core's unscoped buffers after each of these six items are
a fold from the launch memory: a host stretch applies its operations; a region leaves its arrays at what its write-backs made
of them and every other buffer alone. -/

variable (m : (ℓ : Loc nD τ sig) → Buf (Elt F) ℓ)

/-- Core `c`'s buffers at launch. -/
abbrev W0 : Dev nD → Valuation τ sig (Elt F) := fun c b => m (c, b)
/-- After the first host stretch: region 0's entry. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its output array at what the one write-back leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the constant. -/
abbrev W3 : Dev nD → Valuation τ sig (Elt F) := fun c => StableHlo.after hostOps1 (W2 m c)
/-- After the padding: region 1's entry. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit: its output array at what the last point's write-back leaves, every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the final reshape: what @main returns with. -/
abbrev W6 : Dev nD → Valuation τ sig (Elt F) := fun c => StableHlo.after hostOps2 (W5 m c)

end Cert.KernelIdeal.Hand

end
-- ==== Proof.Run.lean ====
import proofs.«103635_j55800215109664_1_alg».proof.Proof.Fold
import proofs.«103635_j55800215109664_1_alg».proof.Proof.Gen.KernelIdeal.Launch
import proofs.«103635_j55800215109664_1_alg».proof.Proof.Gen.KernelIdeal.Skeleton
import proofs.«103635_j55800215109664_1_alg».proof.Proof.Gen.KernelIdeal.Points
import proofs.«103635_j55800215109664_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The launch: @main as a list of segments

A *segment* is one item of @main as the several-regions launch sees it: either a stretch of host operations run one after
another, or one kernel region (a `custom_call` entering a pipeline). @main here is six of them: the four operations that cut
the last column of `Z` and the last row of `V`, region 0, the constant, the two operations of the padding, region 1, the final
reshape.

Between two segments the TensorCore thread of core `c` holds the same three things, and only the contents change: every
unscoped buffer whole, at the contents the fold `W0 … W6` names for that boundary; the core's generator register at some state;
and the core's dues, at nothing. A host stretch moves the buffers from `W` to `StableHlo.after ops W` and passes the rest
along. A region takes its windows' arrays out of the buffers, lends the register (and the scoped buffers no window stages) to
its invariant for the length of the grid, and at its exit puts the arrays back at what its write-backs left, every other
buffer as entered. -/

variable (m : (ℓ : Loc nD τ sig) → Buf (Elt F) ℓ) (ρ : Dev nD → PrngReg)

/-! ## The arguments end as launched

No host operation writes an argument and no region has one as an output window: region 0 reads `main_arg3` and `main_arg2`
through input windows (whose arrays the pipeline leaves as entered), and no region touches `main_arg0` or `main_arg1`. So the
fold at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := (W2_arr m c 0).trans (((dat0 (V1 m) c).arrAt_in 0 rfl _).trans (A_eq0 (V1 m) c 0))
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents: a literal `match`, so that at a numeral the family
    reduces to the region's own data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core's dues, at nothing. -/
abbrev R (c : Dev nD) : sProp 𝕄 := iprop((∃ r, prngReg c r) ∗ ∃ W, owes (c : Thread nD τ) (0 : CellTallies nD τ sig Unit) W)
/-- A host stretch as a segment over the unscoped references, from the contents `W`, `R` riding along: it leaves those
    references at `StableHlo.after ops (W c)`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues (the launch's chain ends at it beside the core owing nothing): every unscoped
    buffer at the last boundary's contents `W6`, the generator register at some state. -/
abbrev Tₙ (c : Dev nD) : sProp 𝕄 := iprop(StableHlo.held (c : Thread nD τ) (Pipeline.ucRefs τ sig) (W6 m c) ∗ ∃ r, prngReg c r)

/-- What the last host stretch leaves is the last thread state beside the core owing nothing: the same three conjuncts,
    grouped the other way. -/
theorem last_post (c : Dev nD) :
    iprop(StableHlo.held (c : Thread nD τ) (Pipeline.ucRefs τ sig) (W6 m c) ∗ (∃ r, prngReg c r) ∗ ∃ W, owes (c : Thread nD τ) (0 : CellTallies nD τ sig Unit) W)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The regions as segments -/

-- a library lemma stated over `pin pcs a p` meets the pinned configuration only when unification may unfold plain
-- definitions in a metavariable's type
set_option backward.isDefEq.respectTransparency.types false in
/-- Region 0 over the thread state: entered from every unscoped buffer at `W1`, left at `W2`. Its five arrays are split out
    of the unscoped buffers and put back at the exit contents; the generator register goes into the invariant (which is the
    scoped rest beside the register, at every point) and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` meets the pinned configuration only when unification may unfold plain
-- definitions in a metavariable's type
set_option backward.isDefEq.respectTransparency.types false in
/-- Region 1 over the thread state: entered from every unscoped buffer at `W4`, left at `W5`. As region 0, except that its
    invariant is not the same at every point (it carries the scratch accumulator across the grid): the scoped rest and the
    register make the invariant at the first point (`hin1`), and the invariant at the last point gives them back (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V4 m) c)
    unfold Pipeline.ΦA
    iintro ⟨Hp, -, Hr⟩
    isplitl [Hr]; · iexact Hr
    iexact Hp
  hout c := by
    rw [Pipeline.ownSems0_none]
    refine BIBase.Entails.trans (hout1 (V4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)) ]

-- the launch's implicit arguments are found by unifying its conclusion with this one, which takes unfolding plain
-- definitions in a metavariable's type
set_option backward.isDefEq.respectTransparency.types false in
/-- The whole run: from any memory `m` with zero counters, every weakly fair execution of @main on the TensorCores
    terminates, nothing faulting, and every final memory holds each unscoped buffer at the fold's last contents `W6`. The
    launch over the segments: the thread states chain (each segment is entered from what the one before it left, by name);
    the first is made from what the launch deals; the last is read against the final state. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every weakly fair execution of @main terminates, nothing faulting, and every final memory holds the four
    argument arrays as launched: each is an unscoped buffer, which the run leaves at `W6`, and the fold at an argument walks
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c)⟩) (run_all m ρ)

end Cert.KernelIdeal.Hand

end
-- ==== Proof.KVal0.lean ====
import proofs.«103635_j55800215109664_1_alg».proof.Proof.R0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open scoped BigOperators

/-! ## The two matrix products, read at an index

The first product contracts the row `x` with `Q` along BOTH operands' axis 1: entry `p` of the result is
`∑ r, x[0,r] · Q[p,r]`, a product with `Qᵀ`. The second is the plain row-times-matrix product. -/

theorem lhs0_qt_0 (i : S1x2049.Idx) (q : dot_S1x2049_S2049x2049_S1x2049_1_1_0_0_n_n.contr.Idx) :
    (dot_S1x2049_S2049x2049_S1x2049_1_1_0_0_n_n.lhsIdx i q 0).val = (i 0).val := by
  unfold DotDims.lhsIdx
  rw [dif_neg (show ¬(0 : Fin S1x2049.rank) ∈ dot_S1x2049_S2049x2049_S1x2049_1_1_0_0_n_n.lhsBatch by decide), dif_pos (show (0 : Fin S1x2049.rank) ∈ dot_S1x2049_S2049x2049_S1x2049_1_1_0_0_n_n.lhsNonContracting by decide)]
  rfl
theorem lhs0_qt_1 (i : S1x2049.Idx) (q : dot_S1x2049_S2049x2049_S1x2049_1_1_0_0_n_n.contr.Idx) :
    (dot_S1x2049_S2049x2049_S1x2049_1_1_0_0_n_n.lhsIdx i q 1).val = (q ⟨0, by decide⟩).val :=
  dot_S1x2049_S2049x2049_S1x2049_1_1_0_0_n_n.lhsIdx_val_of_single rfl i q
theorem rhs0_qt_0 (i : S1x2049.Idx) (q : dot_S1x2049_S2049x2049_S1x2049_1_1_0_0_n_n.contr.Idx) :
    (dot_S1x2049_S2049x2049_S1x2049_1_1_0_0_n_n.rhsIdx i q 0).val = (i 1).val := by
  unfold DotDims.rhsIdx
  rw [dif_neg (show ¬(0 : Fin S2049x2049.rank) ∈ dot_S1x2049_S2049x2049_S1x2049_1_1_0_0_n_n.rhsBatch by decide), dif_pos (show (0 : Fin S2049x2049.rank) ∈ dot_S1x2049_S2049x2049_S1x2049_1_1_0_0_n_n.rhsNonContracting by decide)]
  rfl
theorem rhs0_qt_1 (i : S1x2049.Idx) (q : dot_S1x2049_S2049x2049_S1x2049_1_1_0_0_n_n.contr.Idx) :
    (dot_S1x2049_S2049x2049_S1x2049_1_1_0_0_n_n.rhsIdx i q 1).val = (q ⟨0, by decide⟩).val :=
  dot_S1x2049_S2049x2049_S1x2049_1_1_0_0_n_n.rhsIdx_val_of_single rfl i q

/-- A row times the transpose of a square matrix, into the zero accumulator. -/
theorem mm0_qt_apply {φ₁ φ₂ : FTy} (l : FVec Ideal S1x2049 φ₁) (r : FVec Ideal S2049x2049 φ₂) (p : Fin 2049) :
    matmul dot_S1x2049_S2049x2049_S1x2049_1_1_0_0_n_n none l r (constant (F := Ideal) S1x2049 .f32 0x00000000#32) (ix2 (0 : Fin 1) p)
      = ∑ k : Fin 2049, l (ix2 (0 : Fin 1) k) * r (ix2 p k) := by
  show FloatOps.matmul dot_S1x2049_S2049x2049_S1x2049_1_1_0_0_n_n none l r (constant (F := Ideal) S1x2049 .f32 0x00000000#32) (ix2 (0 : Fin 1) p) = _
  rw [Ideal.matmul_constant_zero_apply, ← Equiv.sum_comp (ValueIdx.contrEquiv1 dot_S1x2049_S2049x2049_S1x2049_1_1_0_0_n_n 2049 rfl rfl).symm]
  refine Finset.sum_congr rfl fun k _ => ?_
  have hk := ValueIdx.contrEquiv1_symm_val dot_S1x2049_S2049x2049_S1x2049_1_1_0_0_n_n 2049 rfl rfl k
  have el : dot_S1x2049_S2049x2049_S1x2049_1_1_0_0_n_n.lhsIdx (ix2 (0 : Fin 1) p) ((ValueIdx.contrEquiv1 dot_S1x2049_S2049x2049_S1x2049_1_1_0_0_n_n 2049 rfl rfl).symm k) = ix2 (0 : Fin 1) k := funext fun a => Fin.ext (by
    match a with
    | ⟨0, _⟩ => exact lhs0_qt_0 _ _
    | ⟨1, _⟩ => exact (lhs0_qt_1 _ _).trans hk)
  have er : dot_S1x2049_S2049x2049_S1x2049_1_1_0_0_n_n.rhsIdx (ix2 (0 : Fin 1) p) ((ValueIdx.contrEquiv1 dot_S1x2049_S2049x2049_S1x2049_1_1_0_0_n_n 2049 rfl rfl).symm k) = ix2 p k := funext fun a => Fin.ext (by
    match a with
    | ⟨0, _⟩ => exact rhs0_qt_0 _ _
    | ⟨1, _⟩ => exact (rhs0_qt_1 _ _).trans hk)
  rw [el, er]

theorem lhs0_k_0 (i : S1x2049.Idx) (q : dot_S1x2049_S2049x2049_S1x2049_1_0_0_1_n_n.contr.Idx) :
    (dot_S1x2049_S2049x2049_S1x2049_1_0_0_1_n_n.lhsIdx i q 0).val = (i 0).val := by
  unfold DotDims.lhsIdx
  rw [dif_neg (show ¬(0 : Fin S1x2049.rank) ∈ dot_S1x2049_S2049x2049_S1x2049_1_0_0_1_n_n.lhsBatch by decide), dif_pos (show (0 : Fin S1x2049.rank) ∈ dot_S1x2049_S2049x2049_S1x2049_1_0_0_1_n_n.lhsNonContracting by decide)]
  rfl
theorem lhs0_k_1 (i : S1x2049.Idx) (q : dot_S1x2049_S2049x2049_S1x2049_1_0_0_1_n_n.contr.Idx) :
    (dot_S1x2049_S2049x2049_S1x2049_1_0_0_1_n_n.lhsIdx i q 1).val = (q ⟨0, by decide⟩).val :=
  dot_S1x2049_S2049x2049_S1x2049_1_0_0_1_n_n.lhsIdx_val_of_single rfl i q
theorem rhs0_k_0 (i : S1x2049.Idx) (q : dot_S1x2049_S2049x2049_S1x2049_1_0_0_1_n_n.contr.Idx) :
    (dot_S1x2049_S2049x2049_S1x2049_1_0_0_1_n_n.rhsIdx i q 0).val = (q ⟨0, by decide⟩).val :=
  dot_S1x2049_S2049x2049_S1x2049_1_0_0_1_n_n.rhsIdx_val_of_single rfl i q
theorem rhs0_k_1 (i : S1x2049.Idx) (q : dot_S1x2049_S2049x2049_S1x2049_1_0_0_1_n_n.contr.Idx) :
    (dot_S1x2049_S2049x2049_S1x2049_1_0_0_1_n_n.rhsIdx i q 1).val = (i 1).val := by
  unfold DotDims.rhsIdx
  rw [dif_neg (show ¬(1 : Fin S2049x2049.rank) ∈ dot_S1x2049_S2049x2049_S1x2049_1_0_0_1_n_n.rhsBatch by decide), dif_pos (show (1 : Fin S2049x2049.rank) ∈ dot_S1x2049_S2049x2049_S1x2049_1_0_0_1_n_n.rhsNonContracting by decide)]
  rfl

/-- A row times a square matrix, into the zero accumulator. -/
theorem mm0_k_apply {φ₁ φ₂ : FTy} (l : FVec Ideal S1x2049 φ₁) (r : FVec Ideal S2049x2049 φ₂) (s : Fin 2049) :
    matmul dot_S1x2049_S2049x2049_S1x2049_1_0_0_1_n_n none l r (constant (F := Ideal) S1x2049 .f32 0x00000000#32) (ix2 (0 : Fin 1) s)
      = ∑ k : Fin 2049, l (ix2 (0 : Fin 1) k) * r (ix2 k s) := by
  show FloatOps.matmul dot_S1x2049_S2049x2049_S1x2049_1_0_0_1_n_n none l r (constant (F := Ideal) S1x2049 .f32 0x00000000#32) (ix2 (0 : Fin 1) s) = _
  rw [Ideal.matmul_constant_zero_apply, ← Equiv.sum_comp (ValueIdx.contrEquiv1 dot_S1x2049_S2049x2049_S1x2049_1_0_0_1_n_n 2049 rfl rfl).symm]
  refine Finset.sum_congr rfl fun k _ => ?_
  have hk := ValueIdx.contrEquiv1_symm_val dot_S1x2049_S2049x2049_S1x2049_1_0_0_1_n_n 2049 rfl rfl k
  have el : dot_S1x2049_S2049x2049_S1x2049_1_0_0_1_n_n.lhsIdx (ix2 (0 : Fin 1) s) ((ValueIdx.contrEquiv1 dot_S1x2049_S2049x2049_S1x2049_1_0_0_1_n_n 2049 rfl rfl).symm k) = ix2 (0 : Fin 1) k := funext fun a => Fin.ext (by
    match a with
    | ⟨0, _⟩ => exact lhs0_k_0 _ _
    | ⟨1, _⟩ => exact (lhs0_k_1 _ _).trans hk)
  have er : dot_S1x2049_S2049x2049_S1x2049_1_0_0_1_n_n.rhsIdx (ix2 (0 : Fin 1) s) ((ValueIdx.contrEquiv1 dot_S1x2049_S2049x2049_S1x2049_1_0_0_1_n_n 2049 rfl rfl).symm k) = ix2 k s := funext fun a => Fin.ext (by
    match a with
    | ⟨0, _⟩ => exact (rhs0_k_0 _ _).trans hk
    | ⟨1, _⟩ => exact rhs0_k_1 _ _)
  rw [el, er]

/-! ## The body's payload at an index

Row 0 of the concatenation is the second product of the first; row 1 is the row of `V`. A change of float format
and a cast to the same shape are the identity here. -/

theorem pay0_row0 (x0 x1 : Vec Ideal S2049x2049 .f32) (x2 x3 : Vec Ideal S1x2049 .f32) (s : Fin 2049) :
    k0_pay1 (F := Ideal) x0 x1 x2 x3 (ix2 (0 : Fin 2) s)
      = ∑ p : Fin 2049, (∑ r : Fin 2049, x2 (ix2 (0 : Fin 1) r) * x0 (ix2 p r)) * x1 (ix2 p s) := by
  unfold k0_pay1
  refine (concatenate_pair_apply_left (t := S2x2049) (s₁ := S1x2049) (s₂ := S1x2049) (0 : Fin S2x2049.rank) _ _ _ (ix2 (0 : Fin 2) s) rfl (ix2 (0 : Fin 1) s) (fun b => by
    match b with
    | ⟨0, _⟩ => rfl
    | ⟨1, _⟩ => rfl)).trans ?_
  refine (mm0_k_apply _ _ s).trans ?_
  refine Finset.sum_congr rfl fun p _ => ?_
  refine congrArg (· * x1 (ix2 p s)) ?_
  refine (mm0_qt_apply _ _ p).trans ?_
  refine Finset.sum_congr rfl fun r _ => ?_
  exact congrArg (· * x0 (ix2 p r)) (congrFun (shapeCast_self x2 _) (ix2 (0 : Fin 1) r))

theorem pay0_row1 (x0 x1 : Vec Ideal S2049x2049 .f32) (x2 x3 : Vec Ideal S1x2049 .f32) (s : Fin 2049) :
    k0_pay1 (F := Ideal) x0 x1 x2 x3 (ix2 (1 : Fin 2) s) = x3 (ix2 (0 : Fin 1) s) := by
  unfold k0_pay1
  refine (concatenate_pair_apply_right (t := S2x2049) (s₁ := S1x2049) (s₂ := S1x2049) (0 : Fin S2x2049.rank) _ _ _ (ix2 (1 : Fin 2) s) rfl rfl (ix2 (0 : Fin 1) s) (fun b hb => by
    match b with
    | ⟨0, _⟩ => exact absurd rfl hb
    | ⟨1, _⟩ => rfl) rfl).trans ?_
  exact congrFun (shapeCast_self x3 _) (ix2 (0 : Fin 1) s)

/-! ## The output's staging buffer after the body is the payload of the input blocks -/

theorem zero_off0 : (![0, 0] : Fin 2 → Nat) = fun _ => 0 := funext fun a => by
  match a with
  | ⟨0, _⟩ => rfl
  | ⟨1, _⟩ => rfl

theorem out0_4_eq (x0 x1 : Vec Ideal S2049x2049 .f32) (x2 x3 : Vec Ideal S1x2049 .f32) :
    out0_4 (F := Ideal) x0 x1 x2 x3 = k0_pay1 (F := Ideal) x0 x1 x2 x3 := by
  unfold out0_4
  rw [View.canon_unit_zero zero_off0]
  simp only [View.ld_unit_zero (S := S2049x2049) zero_off0, View.ld_unit_zero (S := S1x2049) zero_off0]

variable (V : (c : Dev nD) → (b : Ref sig .tc) → Buf (Elt Ideal) ((c : Thread nD τ).loc b))

/-- The arrays region 0 reads and writes, each named at its literal type. -/
abbrev arrQ (c : Dev nD) : Vec Ideal S2049x2049 .f32 := V c main_arg3
abbrev arrK (c : Dev nD) : Vec Ideal S2049x2049 .f32 := V c main_arg2
abbrev rowZ (c : Dev nD) : Vec Ideal S1x2049 .f32 := V c main_v2
abbrev rowV (c : Dev nD) : Vec Ideal S1x2049 .f32 := V c main_v3
abbrev arrM (c : Dev nD) : Vec Ideal S2x2049 .f32 := (dat0 V c).arrAt 4 cfg0.N

/-! ## Each window's one block is its whole array

Every index map of the region is constantly `(0, 0)` and every block has its array's extents, so a block's
coordinate `index · size + 1 · y` is `y` itself. -/

theorem idx_zero0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem iblk0_0_eq (c : Dev nD) (t : Fin cfg0.N) : iblk0 V c 0 t = arrQ V c := by
  obtain ⟨e0, e1, -⟩ := idx_zero0 t
  funext y
  show V c main_arg3 (((cfg0.win 0).blk t).view.emb y) = V c main_arg3 y
  refine congrArg (V c main_arg3) ?_
  funext a; apply Fin.ext
  match a with
  | ⟨0, _⟩ => show win0_0.index t (0 : Fin 2) * 2049 + 1 * (y 0).val = (y 0).val; omega
  | ⟨1, _⟩ => show win0_0.index t (1 : Fin 2) * 2049 + 1 * (y 1).val = (y 1).val; omega

theorem iblk0_1_eq (c : Dev nD) (t : Fin cfg0.N) : iblk0 V c 1 t = arrK V c := by
  obtain ⟨-, -, e0, e1, -⟩ := idx_zero0 t
  funext y
  show V c main_arg2 (((cfg0.win 1).blk t).view.emb y) = V c main_arg2 y
  refine congrArg (V c main_arg2) ?_
  funext a; apply Fin.ext
  match a with
  | ⟨0, _⟩ => show win0_1.index t (0 : Fin 2) * 2049 + 1 * (y 0).val = (y 0).val; omega
  | ⟨1, _⟩ => show win0_1.index t (1 : Fin 2) * 2049 + 1 * (y 1).val = (y 1).val; omega

theorem iblk0_2_eq (c : Dev nD) (t : Fin cfg0.N) : iblk0 V c 2 t = rowZ V c := by
  obtain ⟨-, -, -, -, e0, e1, -⟩ := idx_zero0 t
  funext y
  show V c main_v2 (((cfg0.win 2).blk t).view.emb y) = V c main_v2 y
  refine congrArg (V c main_v2) ?_
  funext a; apply Fin.ext
  match a with
  | ⟨0, _⟩ => show win0_2.index t (0 : Fin 2) * 1 + 1 * (y 0).val = (y 0).val; omega
  | ⟨1, _⟩ => show win0_2.index t (1 : Fin 2) * 2049 + 1 * (y 1).val = (y 1).val; omega

theorem iblk0_3_eq (c : Dev nD) (t : Fin cfg0.N) : iblk0 V c 3 t = rowV V c := by
  obtain ⟨-, -, -, -, -, -, e0, e1, -⟩ := idx_zero0 t
  funext y
  show V c main_v3 (((cfg0.win 3).blk t).view.emb y) = V c main_v3 y
  refine congrArg (V c main_v3) ?_
  funext a; apply Fin.ext
  match a with
  | ⟨0, _⟩ => show win0_3.index t (0 : Fin 2) * 1 + 1 * (y 0).val = (y 0).val; omega
  | ⟨1, _⟩ => show win0_3.index t (1 : Fin 2) * 2049 + 1 * (y 1).val = (y 1).val; omega

/-! ## The output array after the region

The one point's block of window 4 is the whole of `main_v4`, written back once: the array ends holding the body's
payload of the four input arrays. -/

/-- The payload of the four arrays the region reads. -/
abbrev payM (c : Dev nD) : Vec Ideal S2x2049 .f32 := k0_pay1 (F := Ideal) (arrQ V c) (arrK V c) (rowZ V c) (rowV V c)

theorem flushed0_4_eq (c : Dev nD) (t : Fin cfg0.N) :
    (dat0 V c).flushed 4 t = ((cfg0.win 4).blk t).view.read (Elt Ideal) (payM V c) := by
  show (cfg0.win 4).cut (grid0.coords t) ((dat0 V c).after 4 t) = _
  rw [after0_4, iblk0_0_eq, iblk0_1_eq, iblk0_2_eq, iblk0_3_eq, out0_4_eq]
  obtain ⟨-, -, -, -, -, -, -, -, e0, e1⟩ := idx_zero0 t
  funext y
  show payM V c y = payM V c (((cfg0.win 4).blk t).view.emb y)
  refine congrArg (payM V c) (Eq.symm ?_)
  funext a; apply Fin.ext
  match a with
  | ⟨0, _⟩ => show win0_4.index t (0 : Fin 2) * 2 + 1 * (y 0).val = (y 0).val; omega
  | ⟨1, _⟩ => show win0_4.index t (1 : Fin 2) * 2049 + 1 * (y 1).val = (y 1).val; omega

/-- An index of the array is in point `t`'s block iff each coordinate is in the block's range on its axis. -/
theorem mem_blk0_4 (t : Fin cfg0.N) (i : S2x2049.Idx) :
    i ∈ ((cfg0.win 4).blk t).view.set ↔ ∀ a : Fin 2, win0_4.index t a * S2x2049.size a ≤ (i a).val ∧ (i a).val < win0_4.index t a * S2x2049.size a + S2x2049.size a := by
  show i ∈ ((View.whole main_v4).slice (win0_4.rect t)).set ↔ _
  rw [View.set_slice_whole, Rect.mem_set_unit]
  exact Iff.rfl

theorem arrM_eq (c : Dev nD) : arrM V c = payM V c :=
  (dat0 V c).arrAt_eq_of_cover 4 (payM V c) (fun t _ => flushed0_4_eq V c t) (fun i => by
    refine ⟨t0_0, flush0_4 t0_0, ?_⟩
    rw [mem_blk0_4]
    obtain ⟨-, -, -, -, -, -, -, -, e0, e1⟩ := idx_zero0 t0_0
    intro a
    match a with
    | ⟨0, _⟩ =>
      show win0_4.index t0_0 (0 : Fin 2) * 2 ≤ (i 0).val ∧ (i 0).val < win0_4.index t0_0 (0 : Fin 2) * 2 + 2
      have hi : (i 0).val < 2 := (i 0).isLt
      omega
    | ⟨1, _⟩ =>
      show win0_4.index t0_0 (1 : Fin 2) * 2049 ≤ (i 1).val ∧ (i 1).val < win0_4.index t0_0 (1 : Fin 2) * 2049 + 2049
      have hi : (i 1).val < 2049 := (i 1).isLt
      omega)

/-! ## The two rows of the output -/

theorem M_row0 (c : Dev nD) (s : Fin 2049) :
    arrM V c (ix2 (0 : Fin 2) s)
      = ∑ p : Fin 2049, (∑ r : Fin 2049, rowZ V c (ix2 (0 : Fin 1) r) * arrQ V c (ix2 p r)) * arrK V c (ix2 p s) :=
  (congrFun (arrM_eq V c) (ix2 (0 : Fin 2) s)).trans (pay0_row0 (arrQ V c) (arrK V c) (rowZ V c) (rowV V c) s)

theorem M_row1 (c : Dev nD) (s : Fin 2049) :
    arrM V c (ix2 (1 : Fin 2) s) = rowV V c (ix2 (0 : Fin 1) s) :=
  (congrFun (arrM_eq V c) (ix2 (1 : Fin 2) s)).trans (pay0_row1 (arrQ V c) (arrK V c) (rowZ V c) (rowV V c) s)

end Cert.KernelIdeal.KVal

end
-- ==== Proof.R1Val.lean ====
import proofs.«103635_j55800215109664_1_alg».proof.Proof.Gen.KernelIdeal.Launch
import proofs.«103635_j55800215109664_1_alg».proof.Proof.Gen.KernelIdeal.Skeleton
import proofs.«103635_j55800215109664_1_alg».proof.Proof.Gen.KernelIdeal.Points
import proofs.«103635_j55800215109664_1_alg».proof.Proof.R1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the tile-by-tile runs leave, in the kernel's own arithmetic

Each store's payload is one of three functions of what the body loaded: the zero the running total is reset to, the
total plus the tile's sum of products of the two rows of (stacked rows) x (tile), and the total scaled by 2⁻¹³. A load
through a whole buffer reads its contents; a load of the scratch after a store into it reads what was stored. -/

variable (V : (c : Dev nD) → (b : Ref sig .tc) → Buf (Elt F) ((c : Thread nD τ).loc b))

/-- Every access of the body starts at the origin of its buffer. -/
theorem zeroOff1 : (![0, 0] : Fin 2 → Nat) = fun _ => 0 := funext fun a => by fin_cases a <;> rfl

/-- The first tile leaves in the scratch: zero plus the tile's sum. -/
theorem sout1_A_eq (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i) (x0 : Vec F S2x2049 .f32) (x1 : Vec F S2049x2048 .f32) :
    sout1_A_0 c i arg1 harg1 arg2 harg2 arg3 harg3 arg4 harg4 hc0 hc1 x0 x1 = k1_pay2 x0 x1 (k1_pay1 (F := F)) := by
  unfold sout1_A_0
  rw [View.read_writes_eq_canon _ _ _ (scover1_A_0 c i arg1 harg1 arg2 harg2 arg3 harg3 arg4 harg4 hc0 hc1 x0 x1)]
  unfold kernelRun1_A
  dsimp only
  sl_unfold_words
  rw [View.canon_cons_unit_zero (S := S1x1) zeroOff1, View.readCov_unit_zero (S := S1x1) _ zeroOff1]
  simp only [View.readAt_eq_ld, harg1.read_unread, harg2.read_unread, harg3.read_unread, harg4.read_unread, View.ld_unit_zero (S := S2x2049) zeroOff1, View.ld_unit_zero (S := S2049x2048) zeroOff1, View.ld_unit_zero (S := S1x1) zeroOff1]

/-- A middle tile leaves in the scratch: what it found there plus the tile's sum. -/
theorem sout1_B_eq (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i) (x0 : Vec F S2x2049 .f32) (x1 : Vec F S2049x2048 .f32) (xs0 : Vec F S1x1 .f32) :
    sout1_B_0 c i arg1 harg1 arg2 harg2 arg3 harg3 arg4 harg4 hc0 hc1 x0 x1 xs0 = k1_pay2 x0 x1 xs0 := by
  unfold sout1_B_0
  rw [View.read_writes_eq_canon _ _ _ (scover1_B_0 c i arg1 harg1 arg2 harg2 arg3 harg3 arg4 harg4 hc0 hc1 x0 x1 xs0)]
  unfold kernelRun1_B
  dsimp only
  sl_unfold_words
  rw [View.canon_unit_zero zeroOff1]
  simp only [View.readAt_eq_ld, harg1.read_unread, harg2.read_unread, harg3.read_unread, harg4.read_unread, View.ld_unit_zero (S := S2x2049) zeroOff1, View.ld_unit_zero (S := S2049x2048) zeroOff1, View.ld_unit_zero (S := S1x1) zeroOff1]

/-- So does the last tile. -/
theorem sout1_C_eq (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) :
    sout1_C_0 c i arg1 harg1 arg2 harg2 arg3 harg3 arg4 harg4 hc0 hc1 x0 x1 xs0 = k1_pay2 x0 x1 xs0 := by
  unfold sout1_C_0
  rw [View.read_writes_eq_canon _ _ _ (scover1_C_0 c i arg1 harg1 arg2 harg2 arg3 harg3 arg4 harg4 hc0 hc1 x0 x1 xs0)]
  unfold kernelRun1_C
  dsimp only
  sl_unfold_words
  rw [View.canon_unit_zero zeroOff1]
  simp only [View.readAt_eq_ld, harg1.read_unread, harg2.read_unread, harg3.read_unread, harg4.read_unread, View.ld_unit_zero (S := S2x2049) zeroOff1, View.ld_unit_zero (S := S2049x2048) zeroOff1, View.ld_unit_zero (S := S1x1) zeroOff1]

/-- And it stores into the output block the new total, scaled. -/
theorem out1_C_eq (c : Dev nD) (i : grid1.Coords) (arg1 : Memref sig .tc .vmem S2x2049 .f32) (harg1 : arg1.IsWhole) (arg2 : Memref sig .tc .vmem S2049x2048 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i) (x0 : Vec F S2x2049 .f32) (x1 : Vec F S2049x2048 .f32) (xs0 : Vec F S1x1 .f32) :
    out1_C_2 c i arg1 harg1 arg2 harg2 arg3 harg3 arg4 harg4 hc0 hc1 x0 x1 xs0 = k1_pay3 (k1_pay2 x0 x1 xs0) := by
  unfold out1_C_2
  rw [View.read_writes_eq_canon _ _ _ (cover1_C_2 c i arg1 harg1 arg2 harg2 arg3 harg3 arg4 harg4 hc0 hc1 x0 x1 xs0)]
  unfold kernelRun1_C
  dsimp only
  sl_unfold_words
  rw [View.canon_unit_zero zeroOff1]
  simp only [View.readAt_eq_ld, harg1.read_unread, harg2.read_unread, harg3.read_unread, harg4.read_unread, View.ld_unit_zero (S := S2x2049) zeroOff1, View.ld_unit_zero (S := S2049x2048) zeroOff1, View.ld_unit_zero (S := S1x1) zeroOff1, View.readCov_unit_zero (S := S1x1) _ zeroOff1]

/-! ## The running total, point by point -/

/-- After the first tile the scratch holds zero plus that tile's sum. -/
theorem scratch_first (c : Dev nD) (h : 0 < cfg1.N) :
    (outsAt1 V c 0 h).2 = k1_pay2 (mblk V c ⟨0, h⟩) (zblk V c ⟨0, h⟩) (k1_pay1 (F := F)) := by
  have h0 : (⟨0, h⟩ : Fin cfg1.N).val % 5 = 0 := Nat.zero_mod 5
  have h1 : ¬(⟨0, h⟩ : Fin cfg1.N).val % 5 = 4 := fun e => absurd (h0.symm.trans e) (by decide)
  show (outsAt1 V c (⟨0, h⟩ : Fin cfg1.N).val (⟨0, h⟩ : Fin cfg1.N).isLt).2 = _
  rw [outsAt1_A V c (⟨0, h⟩ : Fin cfg1.N) h0 h1]; dsimp only
  exact sout1_A_eq c (grid1.coords (⟨0, h⟩ : Fin cfg1.N)) (ms1_0 (⟨0, h⟩ : Fin cfg1.N)) (hs1_0 (⟨0, h⟩ : Fin cfg1.N)) (ms1_1 (⟨0, h⟩ : Fin cfg1.N)) (hs1_1 (⟨0, h⟩ : Fin cfg1.N)) (ms1_2 (⟨0, h⟩ : Fin cfg1.N)) (hs1_2 (⟨0, h⟩ : Fin cfg1.N)) scM1_0 (Memref.isWhole_whole _) ((hcond1_0 (⟨0, h⟩ : Fin cfg1.N)).mpr h0) (fun e => h1 ((hcond1_1 (⟨0, h⟩ : Fin cfg1.N)).mp e)) (iblk1 V c 0 (⟨0, h⟩ : Fin cfg1.N)) (iblk1 V c 1 (⟨0, h⟩ : Fin cfg1.N))

/-- After every later tile it holds what the tile before left plus this tile's sum. -/
theorem scratch_next (c : Dev nD) (n : ℕ) (h : n + 1 < cfg1.N) :
    (outsAt1 V c (n + 1) h).2 = k1_pay2 (mblk V c ⟨n + 1, h⟩) (zblk V c ⟨n + 1, h⟩) (outsAt1 V c n (Nat.lt_of_succ_lt h)).2 := by
  have hN : n + 1 < 5 := lt_of_lt_of_eq h N_1
  have h0 : ¬(⟨n + 1, h⟩ : Fin cfg1.N).val % 5 = 0 := by show ¬(n + 1) % 5 = 0; omega
  by_cases h1 : (⟨n + 1, h⟩ : Fin cfg1.N).val % 5 = 4
  · show (outsAt1 V c (⟨n + 1, h⟩ : Fin cfg1.N).val (⟨n + 1, h⟩ : Fin cfg1.N).isLt).2 = _
    rw [outsAt1_C V c (⟨n + 1, h⟩ : Fin cfg1.N) h0 h1]; dsimp only
    exact sout1_C_eq c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) scM1_0 (Memref.isWhole_whole _) (fun e => h0 ((hcond1_0 (⟨n + 1, h⟩ : Fin cfg1.N)).mp e)) ((hcond1_1 (⟨n + 1, h⟩ : Fin cfg1.N)).mpr h1) (iblk1 V c 0 (⟨n + 1, h⟩ : Fin cfg1.N)) (iblk1 V c 1 (⟨n + 1, h⟩ : Fin cfg1.N)) (outsAt1 V c n (Nat.lt_of_succ_lt h)).2
  · show (outsAt1 V c (⟨n + 1, h⟩ : Fin cfg1.N).val (⟨n + 1, h⟩ : Fin cfg1.N).isLt).2 = _
    rw [outsAt1_B V c (⟨n + 1, h⟩ : Fin cfg1.N) h0 h1]; dsimp only
    exact sout1_B_eq c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) scM1_0 (Memref.isWhole_whole _) (fun e => h0 ((hcond1_0 (⟨n + 1, h⟩ : Fin cfg1.N)).mp e)) (fun e => h1 ((hcond1_1 (⟨n + 1, h⟩ : Fin cfg1.N)).mp e)) (iblk1 V c 0 (⟨n + 1, h⟩ : Fin cfg1.N)) (iblk1 V c 1 (⟨n + 1, h⟩ : Fin cfg1.N)) (outsAt1 V c n (Nat.lt_of_succ_lt h)).2

/-- After the last tile the output block holds the total, scaled. -/
theorem out_last (c : Dev nD) (h : 4 < cfg1.N) : (outsAt1 V c 4 h).1 = k1_pay3 (outsAt1 V c 4 h).2 := by
  have h0 : ¬(⟨4, h⟩ : Fin cfg1.N).val % 5 = 0 := by show ¬(4 : ℕ) % 5 = 0; decide
  have h1 : (⟨4, h⟩ : Fin cfg1.N).val % 5 = 4 := rfl
  show (outsAt1 V c (⟨4, h⟩ : Fin cfg1.N).val (⟨4, h⟩ : Fin cfg1.N).isLt).1 = k1_pay3 (outsAt1 V c (⟨4, h⟩ : Fin cfg1.N).val (⟨4, h⟩ : Fin cfg1.N).isLt).2
  rw [outsAt1_C V c (⟨4, h⟩ : Fin cfg1.N) h0 h1]; dsimp only
  exact (out1_C_eq c (grid1.coords (⟨4, h⟩ : Fin cfg1.N)) (ms1_0 (⟨4, h⟩ : Fin cfg1.N)) (hs1_0 (⟨4, h⟩ : Fin cfg1.N)) (ms1_1 (⟨4, h⟩ : Fin cfg1.N)) (hs1_1 (⟨4, h⟩ : Fin cfg1.N)) (ms1_2 (⟨4, h⟩ : Fin cfg1.N)) (hs1_2 (⟨4, h⟩ : Fin cfg1.N)) scM1_0 (Memref.isWhole_whole _) (fun e => h0 ((hcond1_0 (⟨4, h⟩ : Fin cfg1.N)).mp e)) ((hcond1_1 (⟨4, h⟩ : Fin cfg1.N)).mpr h1) (iblk1 V c 0 (⟨4, h⟩ : Fin cfg1.N)) (iblk1 V c 1 (⟨4, h⟩ : Fin cfg1.N)) (outsAt1 V c 3 (Nat.lt_of_succ_lt h)).2).trans
    (congrArg k1_pay3 (sout1_C_eq c (grid1.coords (⟨4, h⟩ : Fin cfg1.N)) (ms1_0 (⟨4, h⟩ : Fin cfg1.N)) (hs1_0 (⟨4, h⟩ : Fin cfg1.N)) (ms1_1 (⟨4, h⟩ : Fin cfg1.N)) (hs1_1 (⟨4, h⟩ : Fin cfg1.N)) (ms1_2 (⟨4, h⟩ : Fin cfg1.N)) (hs1_2 (⟨4, h⟩ : Fin cfg1.N)) scM1_0 (Memref.isWhole_whole _) (fun e => h0 ((hcond1_0 (⟨4, h⟩ : Fin cfg1.N)).mp e)) ((hcond1_1 (⟨4, h⟩ : Fin cfg1.N)).mpr h1) (iblk1 V c 0 (⟨4, h⟩ : Fin cfg1.N)) (iblk1 V c 1 (⟨4, h⟩ : Fin cfg1.N)) (outsAt1 V c 3 (Nat.lt_of_succ_lt h)).2).symm)

end Cert.KernelIdeal.Hand

end
-- ==== Proof.Spec.lean ====
/-
  The two sides of the certificate as closed formulas over the four input matrices, read as arrays of
  extended reals: `Z` is 2049 x 8193, `Vm`, `K`, `Q` are 2049 x 2049.

  The reference forms VZ = Vm Z, KZ = K Z, QZ = Q Z, the Gram matrix G = KZᵀ QZ, divides G by 8192 entrywise and
  returns the bottom-right entry of VZ (G / 8192):
      refVal = Σ_k VZ[2048, k] · (G[k, 8192] / 8192).

  The kernel never forms G. It takes the last column of Z, pushes it through Q and then K to get one row
  kz[s] = Σ_p (Σ_r Z[r, 8192] · Q[p, r]) · K[p, s], stacks it over the last row of Vm, multiplies that 2 x 2049 matrix by Z
  padded with zero columns to width 10240, and sums the product of the two resulting rows tile by tile (five tiles of 2048
  columns), scaling the total by 2⁻¹³:
      kernelVal = (Σ_t Σ_l a[2048 t + l] · b[2048 t + l]) · 2⁻¹³.

  For finite inputs both are the same real number: a[j] = G[j, 8192] and b[j] = VZ[2048, j] for j < 8193 by exchanging the two
  finite sums, the padded columns contribute zero, and dividing each term by 8192 is scaling the sum by 2⁻¹³.
-/
import Idealize.ShloMosaic.PureOps.Ideal
import Idealize.ShloMosaic.PureOps.Ideal.Laws

noncomputable section

namespace Cert.Spec

open Idealize.ShloMosaic
open scoped BigOperators

variable (Z : Fin 2049 → Fin 8193 → EReal) (Vm K Q : Fin 2049 → Fin 2049 → EReal)

/-! ## The kernel's side -/

/-- The last column of `Z`. -/
def zlast (r : Fin 2049) : EReal := Z r ⟨8192, by decide⟩

/-- The last column of `Z` against the rows of `Q`: entry `p` is (Q Z)[p, 8192]. -/
def qz (p : Fin 2049) : EReal := ∑ r : Fin 2049, zlast Z r * Q p r

/-- That vector against the columns of `K`. -/
def kz (s : Fin 2049) : EReal := ∑ p : Fin 2049, qz Z Q p * K p s

/-- The last row of `Vm`. -/
def vlast (s : Fin 2049) : EReal := Vm ⟨2048, by decide⟩ s

/-- `Z` with 2047 zero columns appended. -/
def zpad (s : Fin 2049) (j : Fin 10240) : EReal := if h : j.val < 8193 then Z s ⟨j.val, h⟩ else 0

/-- Row 0 of the 2 x 10240 product: `kz` against column `j` of the padded `Z`. -/
def rowA (j : Fin 10240) : EReal := ∑ s : Fin 2049, kz Z K Q s * zpad Z s j

/-- Row 1 of the product: the last row of `Vm` against column `j` of the padded `Z`. -/
def rowB (j : Fin 10240) : EReal := ∑ s : Fin 2049, vlast Vm s * zpad Z s j

/-- Column `l` of tile `t`. -/
def col (t : Fin 5) (l : Fin 2048) : Fin 10240 := ⟨2048 * t.val + l.val, by have := t.isLt; have := l.isLt; omega⟩

/-- One tile's contribution: the two rows multiplied entrywise and summed over the tile's 2048 columns. -/
def tileSum (t : Fin 5) : EReal := ∑ l : Fin 2048, rowA Z K Q (col t l) * rowB Z Vm (col t l)

/-- The running total after tile `n`, added up in tile order. -/
def acc : (n : ℕ) → n < 5 → EReal
  | 0, _ => tileSum Z Vm K Q ⟨0, by decide⟩
  | n + 1, h => acc n (by omega) + tileSum Z Vm K Q ⟨n + 1, h⟩

/-- What the kernel returns: the total over the five tiles times the kernel's literal 2⁻¹³. -/
def kernelVal : EReal := acc Z Vm K Q 4 (by decide) * Ideal.ofBits .f32 0x39000000#32

/-! ## The reference's side -/

/-- (Vm Z)[a, k]. -/
def vz (a : Fin 2049) (k : Fin 8193) : EReal := ∑ s : Fin 2049, Vm a s * Z s k
/-- (K Z)[p, k]. -/
def kzm (p : Fin 2049) (k : Fin 8193) : EReal := ∑ s : Fin 2049, K p s * Z s k
/-- (Q Z)[p, k]. -/
def qzm (p : Fin 2049) (k : Fin 8193) : EReal := ∑ s : Fin 2049, Q p s * Z s k
/-- ((K Z)ᵀ (Q Z))[i, j]. -/
def gram (i j : Fin 8193) : EReal := ∑ p : Fin 2049, kzm Z K p i * qzm Z Q p j

/-- What the reference returns: the bottom-right entry of (Vm Z) (Gram / 8192), the divisor the reference's literal 8192.0. -/
def refVal : EReal :=
  ∑ k : Fin 8193, vz Z Vm ⟨2048, by decide⟩ k * Ideal.div (gram Z K Q k ⟨8192, by decide⟩) (Ideal.ofBits .f32 0x46000000#32)

end Cert.Spec

end
-- ==== Proof.SpecK.lean ====
/-
  The kernel's running total over ANY 2 x 2049 matrix `M` and ANY 2049 x 10240 matrix `Zp`: tile `t` contributes
  Σ_l (Σ_s M[0,s]·Zp[s, 2048 t + l]) · (Σ_s M[1,s]·Zp[s, 2048 t + l]), the tiles added up in order. With `M` the stacked rows
  `kz` over `vlast` and `Zp` the padded `Z` this is `Spec.acc`.
-/
import proofs.«103635_j55800215109664_1_alg».proof.Proof.Spec

noncomputable section

namespace Cert.Spec

open scoped BigOperators

/-- One tile's contribution, for any stacked pair of rows and any padded matrix. -/
def tileOf (M : Fin 2 → Fin 2049 → EReal) (Zp : Fin 2049 → Fin 10240 → EReal) (t : Fin 5) : EReal :=
  ∑ l : Fin 2048, (∑ s : Fin 2049, M 0 s * Zp s (col t l)) * (∑ s : Fin 2049, M 1 s * Zp s (col t l))

/-- The running total after tile `n`. -/
def accOf (M : Fin 2 → Fin 2049 → EReal) (Zp : Fin 2049 → Fin 10240 → EReal) : (n : ℕ) → n < 5 → EReal
  | 0, _ => tileOf M Zp ⟨0, by decide⟩
  | n + 1, h => accOf M Zp n (by omega) + tileOf M Zp ⟨n + 1, h⟩

/-- The two rows the kernel's first region stacks. -/
def stack (Z : Fin 2049 → Fin 8193 → EReal) (Vm K Q : Fin 2049 → Fin 2049 → EReal) (a : Fin 2) (s : Fin 2049) : EReal :=
  if a = 0 then kz Z K Q s else vlast Vm s

theorem tileOf_stack (Z : Fin 2049 → Fin 8193 → EReal) (Vm K Q : Fin 2049 → Fin 2049 → EReal) (t : Fin 5) :
    tileOf (stack Z Vm K Q) (zpad Z) t = tileSum Z Vm K Q t := by
  unfold tileOf tileSum rowA rowB stack
  simp

theorem accOf_stack (Z : Fin 2049 → Fin 8193 → EReal) (Vm K Q : Fin 2049 → Fin 2049 → EReal) :
    ∀ (n : ℕ) (h : n < 5), accOf (stack Z Vm K Q) (zpad Z) n h = acc Z Vm K Q n h
  | 0, _ => by unfold accOf acc; exact tileOf_stack Z Vm K Q _
  | n + 1, h => by unfold accOf acc; rw [accOf_stack Z Vm K Q n (by omega), tileOf_stack]

end Cert.Spec

end
-- ==== Proof.KVal1.lean ====
/-
  Region 1's value.  The region keeps a 1 x 1 accumulator over its five grid points: point 0 resets it to zero, every
  point t adds Σ_l (Σ_s M[0,s] · Zp[s, 2048 t + l]) · (Σ_s M[1,s] · Zp[s, 2048 t + l]) for the 2048 columns l of its tile, where M
  is the stacked pair of rows (read whole at every point) and Zp the padded matrix (point t reads its columns 2048 t … 2048 t + 2047),
  and the last point stores the accumulator times the literal 2⁻¹³ into the 1 x 1 output, the only write-back of the region.
  One point's update at the accumulator's index is read off the payload: the tile product is a sum over the one contracted
  axis, its two rows are sliced out, multiplied entrywise and summed over the lanes; the format changes are the identity at
  the extended reals.  Induction over the points gives the running total, and the last point's block covers the output array.
-/
import proofs.«103635_j55800215109664_1_alg».proof.Proof.R1Val
import proofs.«103635_j55800215109664_1_alg».proof.Proof.SpecK
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

namespace Reg1

/-! ## The tile product read at an index -/

theorem lhs_tile_0 (i : S2x2048.Idx) (q : dot_S2x2049_S2049x2048_S2x2048_1_0_0_1_n_n.contr.Idx) :
    (dot_S2x2049_S2049x2048_S2x2048_1_0_0_1_n_n.lhsIdx i q 0).val = (i 0).val := by
  unfold DotDims.lhsIdx
  rw [dif_neg (show ¬(0 : Fin S2x2049.rank) ∈ dot_S2x2049_S2049x2048_S2x2048_1_0_0_1_n_n.lhsBatch by decide), dif_pos (show (0 : Fin S2x2049.rank) ∈ dot_S2x2049_S2049x2048_S2x2048_1_0_0_1_n_n.lhsNonContracting by decide)]
  rfl
theorem lhs_tile_1 (i : S2x2048.Idx) (q : dot_S2x2049_S2049x2048_S2x2048_1_0_0_1_n_n.contr.Idx) :
    (dot_S2x2049_S2049x2048_S2x2048_1_0_0_1_n_n.lhsIdx i q 1).val = (q ⟨0, by decide⟩).val :=
  dot_S2x2049_S2049x2048_S2x2048_1_0_0_1_n_n.lhsIdx_val_of_single rfl i q
theorem rhs_tile_0 (i : S2x2048.Idx) (q : dot_S2x2049_S2049x2048_S2x2048_1_0_0_1_n_n.contr.Idx) :
    (dot_S2x2049_S2049x2048_S2x2048_1_0_0_1_n_n.rhsIdx i q 0).val = (q ⟨0, by decide⟩).val :=
  dot_S2x2049_S2049x2048_S2x2048_1_0_0_1_n_n.rhsIdx_val_of_single rfl i q
theorem rhs_tile_1 (i : S2x2048.Idx) (q : dot_S2x2049_S2049x2048_S2x2048_1_0_0_1_n_n.contr.Idx) :
    (dot_S2x2049_S2049x2048_S2x2048_1_0_0_1_n_n.rhsIdx i q 1).val = (i 1).val := by
  unfold DotDims.rhsIdx
  rw [dif_neg (show ¬(1 : Fin S2049x2048.rank) ∈ dot_S2x2049_S2049x2048_S2x2048_1_0_0_1_n_n.rhsBatch by decide), dif_pos (show (1 : Fin S2049x2048.rank) ∈ dot_S2x2049_S2049x2048_S2x2048_1_0_0_1_n_n.rhsNonContracting by decide)]
  rfl

/-- The 2 x 2049 by 2049 x 2048 product into a zero accumulator: entry (r, l) is Σ_s a[r,s] · b[s,l]. -/
theorem tile_matmul_apply (a : FVec Ideal S2x2049 .bf16) (b : FVec Ideal S2049x2048 .bf16) (r : Fin 2) (l : Fin 2048) :
    FloatOps.matmul dot_S2x2049_S2049x2048_S2x2048_1_0_0_1_n_n none a b (constant (F := Ideal) S2x2048 .f32 0x00000000#32) (ix2 r l)
      = ∑ s : Fin 2049, a (ix2 r s) * b (ix2 s l) := by
  rw [Ideal.matmul_constant_zero_apply, ← Equiv.sum_comp (contrEquiv1 dot_S2x2049_S2049x2048_S2x2048_1_0_0_1_n_n 2049 rfl rfl).symm]
  refine Finset.sum_congr rfl fun k _ => ?_
  have hk := contrEquiv1_symm_val dot_S2x2049_S2049x2048_S2x2048_1_0_0_1_n_n 2049 rfl rfl k
  have el : dot_S2x2049_S2049x2048_S2x2048_1_0_0_1_n_n.lhsIdx (ix2 r l) ((contrEquiv1 dot_S2x2049_S2049x2048_S2x2048_1_0_0_1_n_n 2049 rfl rfl).symm k) = ix2 r k := funext fun a => Fin.ext (by
    match a with
    | ⟨0, _⟩ => exact lhs_tile_0 _ _
    | ⟨1, _⟩ => exact (lhs_tile_1 _ _).trans hk)
  have er : dot_S2x2049_S2049x2048_S2x2048_1_0_0_1_n_n.rhsIdx (ix2 r l) ((contrEquiv1 dot_S2x2049_S2049x2048_S2x2048_1_0_0_1_n_n 2049 rfl rfl).symm k) = ix2 k l := funext fun a => Fin.ext (by
    match a with
    | ⟨0, _⟩ => exact (rhs_tile_0 _ _).trans hk
    | ⟨1, _⟩ => exact rhs_tile_1 _ _)
  rw [el, er]

/-! ## The three payloads at the one index of the 1 x 1 accumulator -/

/-- The reset value is zero. -/
theorem pay1_at : k1_pay1 (F := Ideal) (ix2 (0 : Fin 1) (0 : Fin 1)) = 0 := by
  unfold k1_pay1
  rw [shapeCast_self]
  exact Ideal.ofBits_zero_f32

/-- The scaling step multiplies by the kernel's literal. -/
theorem pay3_at (x : Vec Ideal S1x1 .f32) :
    k1_pay3 (F := Ideal) x (ix2 (0 : Fin 1) (0 : Fin 1)) = x (ix2 (0 : Fin 1) (0 : Fin 1)) * Ideal.ofBits .f32 0x39000000#32 := by
  unfold k1_pay3
  rfl

end Reg1

namespace Reg1

/-- Row 0 of a 2 x 2048 array, sliced out as a 1 x 2048 array, read at column l. -/
theorem row0_at (P : FVec Ideal S2x2048 .f32) (l : Fin 2048) :
    extractStridedSlice S1x2048 ![0, 0] P slices_S2x2048_o0_0_S1x2048 (ix2 (0 : Fin 1) l) = P (ix2 (0 : Fin 2) l) :=
  extractStridedSlice_apply _ _ _ _ _ fun a => by
    match a with
    | ⟨0, _⟩ => rfl
    | ⟨1, _⟩ => show l.val = 0 + l.val; omega

/-- Row 1 likewise. -/
theorem row1_at (P : FVec Ideal S2x2048 .f32) (l : Fin 2048) :
    extractStridedSlice S1x2048 ![1, 0] P slices_S2x2048_o1_0_S1x2048 (ix2 (0 : Fin 1) l) = P (ix2 (1 : Fin 2) l) :=
  extractStridedSlice_apply _ _ _ _ _ fun a => by
    match a with
    | ⟨0, _⟩ => rfl
    | ⟨1, _⟩ => show l.val = 0 + l.val; omega

/-- The sum over the lanes of a 1 x 2048 row. -/
theorem lane_sum (src : FVec Ideal S1x2048 .f32) (hφ : FKind.Formats .f32) (hacc : (0x00000000#32 : BitVec 32) = FKind.add.neutral .f32 hφ) :
    multiReduction (F := Ideal) .add [1] S1 src 0x00000000#32 reduces_S1x2048_S1 hφ hacc (ix1 (0 : Fin 1))
      = ∑ l : Fin 2048, src (ix2 (0 : Fin 1) l) := by
  refine (Ideal.multiReduction_add_single src 0x00000000#32 reduces_S1x2048_S1 hφ hacc (ix1 (0 : Fin 1))).trans ?_
  refine Finset.sum_congr rfl fun l _ => congrArg src (funext fun a => Fin.ext ?_)
  match a with
  | ⟨0, _⟩ => rfl
  | ⟨1, _⟩ => rfl

/-- A one-element vector viewed as a 1 x 1 array. -/
theorem cast_at (R : FVec Ideal S1 .f32) :
    shapeCast S1x1 R shapeCasts_S1_S1x1 (ix2 (0 : Fin 1) (0 : Fin 1)) = R (ix1 (0 : Fin 1)) :=
  shapeCast_apply R shapeCasts_S1_S1x1 _ _ (by rw [Shape.rowMajor_val_one, Shape.rowMajor_val_two]; rfl)

/-- One grid point's update of the accumulator: what it held plus Σ_l (Σ_s m[0,s] z[s,l]) · (Σ_s m[1,s] z[s,l]). -/
theorem pay2_at (x0 : Vec Ideal S2x2049 .f32) (x1 : Vec Ideal S2049x2048 .f32) (xs : Vec Ideal S1x1 .f32) :
    k1_pay2 (F := Ideal) x0 x1 xs (ix2 (0 : Fin 1) (0 : Fin 1))
      = xs (ix2 (0 : Fin 1) (0 : Fin 1))
        + ∑ l : Fin 2048, (∑ s : Fin 2049, x0 (ix2 (0 : Fin 2) s) * x1 (ix2 s l)) * (∑ s : Fin 2049, x0 (ix2 (1 : Fin 2) s) * x1 (ix2 s l)) := by
  unfold k1_pay2
  simp only [shapeCast_self]
  refine congrArg (xs (ix2 (0 : Fin 1) (0 : Fin 1)) + ·) ?_
  refine (cast_at _).trans ?_
  refine (lane_sum _ _ _).trans ?_
  refine Finset.sum_congr rfl fun l _ => ?_
  refine (congrArg₂ (· * ·) (row0_at _ l) (row1_at _ l)).trans ?_
  exact congrArg₂ (· * ·) (tile_matmul_apply _ _ 0 l) (tile_matmul_apply _ _ 1 l)

end Reg1

namespace Reg1

/-! ## The blocks the grid points read -/

/-- The stacked pair of rows and the padded matrix as the region finds them, each at its literal type. -/
abbrev mArr (c : Dev nD) : Vec Ideal S2x2049 .f32 := V c main_v4
abbrev zArr (c : Dev nD) : Vec Ideal S2049x10240 .f32 := V c main_v5

theorem four_lt : 4 < cfg1.N := by rw [show cfg1.N = 5 from N_1]; decide

/-- The block indices over the grid: window 0 and window 2 stay at block (0, 0), window 1 is at block (0, t). -/
theorem idx_facts : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = 0 :=
  (by decide +kernel : ∀ t : Fin grid1.N, _)

/-- Every point reads the whole stacked pair. -/
theorem mblk_at (c : Dev nD) (t : Fin cfg1.N) (a : Fin 2) (s : Fin 2049) :
    mblk V c t (ix2 a s) = mArr V c (ix2 a s) := by
  obtain ⟨e0, e1, -⟩ := idx_facts t
  show V c main_v4 (((cfg1.win 0).blk t).view.emb (ix2 a s)) = V c main_v4 (ix2 a s)
  refine congrArg (V c main_v4) (funext fun d => Fin.ext ?_)
  match d with
  | ⟨0, _⟩ => show win1_0.index t (0 : Fin 2) * 2 + 1 * a.val = a.val; omega
  | ⟨1, _⟩ => show win1_0.index t (1 : Fin 2) * 2049 + 1 * s.val = s.val; omega

/-- Point t reads columns 2048 t … 2048 t + 2047 of the padded matrix. -/
theorem zblk_at (c : Dev nD) (t : Fin cfg1.N) (s : Fin 2049) (l : Fin 2048) :
    zblk V c t (ix2 s l) = zArr V c (ix2 s (Cert.Spec.col ⟨t.val, lt_of_lt_of_eq t.isLt N_1⟩ l)) := by
  obtain ⟨-, -, e2, e3, -⟩ := idx_facts t
  show V c main_v5 (((cfg1.win 1).blk t).view.emb (ix2 s l)) = V c main_v5 (ix2 s (Cert.Spec.col ⟨t.val, lt_of_lt_of_eq t.isLt N_1⟩ l))
  refine congrArg (V c main_v5) (funext fun d => Fin.ext ?_)
  match d with
  | ⟨0, _⟩ => show win1_1.index t (0 : Fin 2) * 2049 + 1 * s.val = s.val; omega
  | ⟨1, _⟩ => show win1_1.index t (1 : Fin 2) * 2048 + 1 * l.val = 2048 * t.val + l.val; omega

/-- One point's sum over its blocks is the tile's contribution over the arrays. -/
theorem tile_eq (c : Dev nD) (t : Fin cfg1.N) :
    ∑ l : Fin 2048, (∑ s : Fin 2049, mblk V c t (ix2 (0 : Fin 2) s) * zblk V c t (ix2 s l)) * (∑ s : Fin 2049, mblk V c t (ix2 (1 : Fin 2) s) * zblk V c t (ix2 s l))
      = Cert.Spec.tileOf (fun a s => mArr V c (ix2 a s)) (fun s j => zArr V c (ix2 s j)) ⟨t.val, lt_of_lt_of_eq t.isLt N_1⟩ := by
  unfold Cert.Spec.tileOf
  refine Finset.sum_congr rfl fun l _ => ?_
  refine congrArg₂ (· * ·) (Finset.sum_congr rfl fun s _ => ?_) (Finset.sum_congr rfl fun s _ => ?_)
  · exact congrArg₂ (· * ·) (mblk_at V c t 0 s) (zblk_at V c t s l)
  · exact congrArg₂ (· * ·) (mblk_at V c t 1 s) (zblk_at V c t s l)

end Reg1

namespace Reg1

/-! ## The accumulator after each point -/

/-- After point n the accumulator holds the running total of the tiles 0 … n. -/
theorem scratch_at (c : Dev nD) : ∀ (n : ℕ) (h : n < cfg1.N),
    (outsAt1 V c n h).2 (ix2 (0 : Fin 1) (0 : Fin 1))
      = Cert.Spec.accOf (fun a s => mArr V c (ix2 a s)) (fun s j => zArr V c (ix2 s j)) n (lt_of_lt_of_eq h N_1)
  | 0, h => by
    refine (congrFun (scratch_first V c h) (ix2 (0 : Fin 1) (0 : Fin 1))).trans ?_
    refine (pay2_at (mblk V c ⟨0, h⟩) (zblk V c ⟨0, h⟩) (k1_pay1 (F := Ideal))).trans ?_
    rw [pay1_at, zero_add, tile_eq V c ⟨0, h⟩]
    rfl
  | n + 1, h => by
    refine (congrFun (scratch_next V c n h) (ix2 (0 : Fin 1) (0 : Fin 1))).trans ?_
    refine (pay2_at (mblk V c ⟨n + 1, h⟩) (zblk V c ⟨n + 1, h⟩) (outsAt1 V c n (Nat.lt_of_succ_lt h)).2).trans ?_
    rw [scratch_at c n (Nat.lt_of_succ_lt h), tile_eq V c ⟨n + 1, h⟩]
    rfl

/-! ## The output array after the region -/

/-- The one write-back, at the last point, writes the whole 1 x 1 output: the block at (0, 0) of a 1 x 1 array is the array. -/
theorem flushed_eq (c : Dev nD) (t : Fin cfg1.N) (hf : (cfg1.win 2).flush t = true) :
    (dat1 V c).flushed 2 t = ((cfg1.win 2).blk t).view.read (Elt Ideal) (outsAt1 V c 4 four_lt).1 := by
  have h1 : t.val = 4 := by have := (flush1_2 t).mp hf; have := lt_of_lt_of_eq t.isLt N_1; omega
  obtain rfl : t = ⟨4, four_lt⟩ := Fin.ext h1
  show (cfg1.win 2).cut (grid1.coords ⟨4, four_lt⟩) ((dat1 V c).after 2 ⟨4, four_lt⟩) = _
  rw [after1_2]
  have hz' : (fun a => win1_2.index ⟨4, four_lt⟩ a * main_v6.ty.shape.size a) = fun _ => 0 := funext fun a => by fin_cases a <;> decide
  exact (Memref.read_access_unit_zero (Elt Ideal) main_v6 hz' (fun a => by rw [congrFun hz' a]; simp) (outsAt1 V c 4 four_lt).1).symm

/-- So the output array ends holding what the last point stored. -/
theorem final_arr (c : Dev nD) : (dat1 V c).arrAt 2 cfg1.N = (outsAt1 V c 4 four_lt).1 :=
  (dat1 V c).arrAt_eq_of_cover 2 (outsAt1 V c 4 four_lt).1 (flushed_eq V c) fun i =>
    ⟨⟨4, four_lt⟩, (flush1_2 ⟨4, four_lt⟩).mpr rfl, by
      show i ∈ ((View.whole main_v6).slice (win1_2.rect ⟨4, four_lt⟩)).set
      rw [View.set_slice_whole, Rect.mem_set_unit]
      intro a
      have h0 : (i 0 : Nat) < 1 := (i 0).isLt
      have h1 : (i 1 : Nat) < 1 := (i 1).isLt
      match a with
      | ⟨0, _⟩ => show win1_2.index ⟨4, four_lt⟩ 0 * win1_2.size 0 ≤ (i 0 : Nat) ∧ (i 0 : Nat) < win1_2.index ⟨4, four_lt⟩ 0 * win1_2.size 0 + win1_2.xsize (grid1.coords ⟨4, four_lt⟩) 0
                  rw [show win1_2.index ⟨4, four_lt⟩ 0 * win1_2.size 0 = 0 from by decide +kernel, show win1_2.xsize (grid1.coords ⟨4, four_lt⟩) 0 = 1 from by decide +kernel]; omega
      | ⟨1, _⟩ => show win1_2.index ⟨4, four_lt⟩ 1 * win1_2.size 1 ≤ (i 1 : Nat) ∧ (i 1 : Nat) < win1_2.index ⟨4, four_lt⟩ 1 * win1_2.size 1 + win1_2.xsize (grid1.coords ⟨4, four_lt⟩) 1
                  rw [show win1_2.index ⟨4, four_lt⟩ 1 * win1_2.size 1 = 0 from by decide +kernel, show win1_2.xsize (grid1.coords ⟨4, four_lt⟩) 1 = 1 from by decide +kernel]; omega⟩

end Reg1

/-- The output's one entry after the region: the running total over the five tiles times the kernel's literal. -/
theorem res_val (c : Dev nD) :
    ((dat1 V c).arrAt 2 cfg1.N : Vec Ideal S1x1 .f32) (ix2 (0 : Fin 1) (0 : Fin 1))
      = Cert.Spec.accOf (fun a s => (V c main_v4 : Vec Ideal S2x2049 .f32) (ix2 a s)) (fun s j => (V c main_v5 : Vec Ideal S2049x10240 .f32) (ix2 s j)) 4 (by decide)
          * Ideal.ofBits .f32 0x39000000#32 := by
  refine (congrFun (Reg1.final_arr V c) (ix2 (0 : Fin 1) (0 : Fin 1))).trans ?_
  refine (congrFun (out_last V c Reg1.four_lt) (ix2 (0 : Fin 1) (0 : Fin 1))).trans ?_
  refine (Reg1.pay3_at (outsAt1 V c 4 Reg1.four_lt).2).trans ?_
  rw [Reg1.scratch_at V c 4 Reg1.four_lt]

end Cert.KernelIdeal.KVal

end
-- ==== Proof.KHost.lean ====
/-
  The kernel program's result, read through the host operations around its two regions.

  Before region 0 the host cuts the last column of Z (entry (r, 8192) for each row r), flattens it and sets it as a
  1 x 2049 row, and cuts the last row of V; no host operation writes Z, V, K or Q. Region 0 leaves the 2 x 2049 array whose
  row 0 is kz[s] = Σ_p (Σ_r Z[r, 8192] · Q[p, r]) · K[p, s] and whose row 1 is the last row of V. Between the regions the host
  converts the integer constant 0 to a float, which is 0, and pads Z with it to 10240 columns: entry (s, j) of the padded
  array is Z[s, j] for j < 8193 and 0 beyond. Region 1 leaves the 1 x 1 array holding the running total over the five tiles of
  these two operands times the literal 2⁻¹³, and the final reshape to a scalar keeps that one entry (the only row-major
  position of a 1 x 1 array and of a scalar is 0). The stacked rows and the padded array are the specification's `stack` and
  `zpad`, so the scalar is `Spec.kernelVal`.
-/
import proofs.«103635_j55800215109664_1_alg».proof.Proof.Fold
import proofs.«103635_j55800215109664_1_alg».proof.Proof.KVal0
import proofs.«103635_j55800215109664_1_alg».proof.Proof.KVal1
import proofs.«103635_j55800215109664_1_alg».proof.Proof.SpecK
import Idealize.ShloMosaic.Lib.StableHlo.Run
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open scoped BigOperators

namespace Host

variable (m : (ℓ : Loc nD τ sig) → Buf (Elt Ideal) ℓ)

/-- The four arguments as launched, each at its literal type: Z, V, K, Q. -/
abbrev argZ (c : Dev nD) : Vec Ideal S2049x8193 .f32 := m ((c : Thread nD τ).loc main_arg0)
abbrev argV (c : Dev nD) : Vec Ideal S2049x2049 .f32 := m ((c : Thread nD τ).loc main_arg1)
abbrev argK (c : Dev nD) : Vec Ideal S2049x2049 .f32 := m ((c : Thread nD τ).loc main_arg2)
abbrev argQ (c : Dev nD) : Vec Ideal S2049x2049 .f32 := m ((c : Thread nD τ).loc main_arg3)

/-- Region 1's 1 x 1 result array after the region, and the scalar the program returns. -/
abbrev resArr (c : Dev nD) : Vec Ideal S1x1 .f32 := W5 (F := Ideal) m c (Proc.devRef .tc main_v6)
abbrev outArr (c : Dev nD) : Vec Ideal S_ .f32 := W6 (F := Ideal) m c (Proc.devRef .tc main_v7)

/-- The returned scalar is the reshape of region 1's result array. -/
theorem out_eq (c : Dev nD) : outArr m c = shapeCast S_ (resArr m c) shapeCasts_S1x1_S_ := by
  show StableHlo.after hostOps2 (W5 (F := Ideal) m c) (Proc.devRef .tc main_v7) = _
  after_results
  rfl

/-- A reshape keeps the row-major position, and both arrays have the one position 0. -/
theorem out_at (c : Dev nD) : outArr m c ix0 = resArr m c (ix2 (0 : Fin 1) (0 : Fin 1)) := by
  rw [out_eq]
  refine shapeCast_apply _ shapeCasts_S1x1_S_ ix0 (ix2 (0 : Fin 1) (0 : Fin 1)) ?_
  rw [Shape.rowMajor_val_two]
  have h := (S_.rowMajor ix0).isLt
  have hn : S_.numel = 1 := by decide
  show 0 * _ + 0 = _
  omega

/-- Region 1's operands at its entry: the stacked rows and the padded matrix. -/
abbrev stk (c : Dev nD) : Vec Ideal S2x2049 .f32 := V4 (F := Ideal) m c main_v4
abbrev padZ (c : Dev nD) : Vec Ideal S2049x10240 .f32 := V4 (F := Ideal) m c main_v5

/-- Region 1's result: the running total over the five tiles of its two operands, times the literal 2⁻¹³. -/
theorem res_at (c : Dev nD) :
    resArr m c (ix2 (0 : Fin 1) (0 : Fin 1))
      = Cert.Spec.accOf (fun a s => stk m c (ix2 a s)) (fun s j => padZ m c (ix2 s j)) 4 (by decide)
          * Ideal.ofBits .f32 0x39000000#32 := by
  have e : resArr m c = ((dat1 (V4 (F := Ideal) m) c).arrAt 2 cfg1.N : Vec Ideal S1x1 .f32) := W5_arr (F := Ideal) m c 2
  rw [e]
  exact res_val (V4 (F := Ideal) m) c

/-- Neither the constant nor the padding writes the stacked rows: they are what region 0 left. -/
theorem stk_eq (c : Dev nD) : stk m c = arrM (V1 (F := Ideal) m) c := by
  have e1 : stk m c = W2 (F := Ideal) m c (Proc.devRef .tc main_v4) := by
    show StableHlo.after hostOps1_1 (StableHlo.after hostOps1 (W2 (F := Ideal) m c)) (Proc.devRef .tc main_v4) = _
    after_results
  rw [e1]
  exact W2_arr (F := Ideal) m c 4

/-! ## The first host stretch: the last column of Z as a row, the last row of V -/

/-- The first host stretch writes none of the arguments. -/
theorem q_eq (c : Dev nD) : arrQ (V1 (F := Ideal) m) c = argQ m c := by
  show StableHlo.after hostOps0 (W0 (F := Ideal) m c) (Proc.devRef .tc main_arg3) = _
  after_results

theorem k_eq (c : Dev nD) : arrK (V1 (F := Ideal) m) c = argK m c := by
  show StableHlo.after hostOps0 (W0 (F := Ideal) m c) (Proc.devRef .tc main_arg2) = _
  after_results

/-- The row region 0 reads as its first operand: the last column of Z, flattened and set as a row. -/
theorem rowZ_eq (c : Dev nD) :
    rowZ (V1 (F := Ideal) m) c
      = shapeCast S1x2049 (shapeCast S2049 (extractStridedSlice S2049x1 ![0, 8192] (argZ m c) slices_S2049x8193_S2049x1_0_8192)
          shapeCasts_S2049x1_S2049) shapeCasts_S2049_S1x2049 := by
  show StableHlo.after hostOps0 (W0 (F := Ideal) m c) (Proc.devRef .tc main_v2) = _
  after_results
  rfl

/-- The row region 0 stacks underneath: the last row of V. -/
theorem rowV_eq (c : Dev nD) :
    rowV (V1 (F := Ideal) m) c = extractStridedSlice S1x2049 ![2048, 0] (argV m c) slices_S2049x2049_S1x2049_2048_0 := by
  show StableHlo.after hostOps0 (W0 (F := Ideal) m c) (Proc.devRef .tc main_v3) = _
  after_results

/-- The last column of a 2049 x 8193 array, cut out as a column, flattened and set as a row: entry (0, r) is entry (r, 8192). -/
theorem lastCol_at (x : Vec Ideal S2049x8193 .f32) (r : Fin 2049) :
    shapeCast S1x2049 (shapeCast S2049 (extractStridedSlice S2049x1 ![0, 8192] x slices_S2049x8193_S2049x1_0_8192)
          shapeCasts_S2049x1_S2049) shapeCasts_S2049_S1x2049 (ix2 (0 : Fin 1) r)
      = x (ix2 r (⟨8192, by decide⟩ : Fin 8193)) := by
  refine (shapeCast_apply _ shapeCasts_S2049_S1x2049 (ix2 (0 : Fin 1) r) (ix1 r) ?_).trans ?_
  · rw [Shape.rowMajor_val_two, Shape.rowMajor_val_one]
    show r.val = 0 * 2049 + r.val
    omega
  refine (shapeCast_apply _ shapeCasts_S2049x1_S2049 (ix1 r) (ix2 r (0 : Fin 1)) ?_).trans ?_
  · rw [Shape.rowMajor_val_two, Shape.rowMajor_val_one]
    show r.val * 1 + 0 = r.val
    omega
  exact extractStridedSlice_apply ![0, 8192] x slices_S2049x8193_S2049x1_0_8192 (ix2 r (0 : Fin 1)) (ix2 r (⟨8192, by decide⟩ : Fin 8193))
    (fun a => match a with
      | ⟨0, _⟩ => by show r.val = 0 + r.val; omega
      | ⟨1, _⟩ => by show 8192 = 8192 + 0; rfl)

/-- The last row of a 2049 x 2049 array cut out: entry (0, s) is entry (2048, s). -/
theorem lastRow_at (x : Vec Ideal S2049x2049 .f32) (s : Fin 2049) :
    extractStridedSlice S1x2049 ![2048, 0] x slices_S2049x2049_S1x2049_2048_0 (ix2 (0 : Fin 1) s)
      = x (ix2 (⟨2048, by decide⟩ : Fin 2049) s) :=
  extractStridedSlice_apply ![2048, 0] x slices_S2049x2049_S1x2049_2048_0 (ix2 (0 : Fin 1) s) (ix2 (⟨2048, by decide⟩ : Fin 2049) s)
    (fun a => match a with
      | ⟨0, _⟩ => by show 2048 = 2048 + 0; rfl
      | ⟨1, _⟩ => by show s.val = 0 + s.val; omega)

/-! ## The padding -/

/-- No item before region 1 writes Z. -/
theorem w2_argZ (c : Dev nD) : (W2 (F := Ideal) m c (Proc.devRef .tc main_arg0) : Vec Ideal S2049x8193 .f32) = argZ m c := by
  refine (W2_of_ne (F := Ideal) m c main_arg0 (by decide)).trans ?_
  show StableHlo.after hostOps0 (W0 (F := Ideal) m c) (Proc.devRef .tc main_arg0) = _
  after_results

/-- The padding value: the integer constant 0 converted to a float. -/
abbrev padVal : FVec Ideal S_ .f32 := sitofp (F := Ideal) .f32 (constantI S_ 32 0#32)

/-- Region 1's second operand is Z padded with that value to 10240 columns. -/
theorem padZ_eq (c : Dev nD) :
    padZ m c = pad S2049x10240 ![0, 0] ![0, 2047] ![0, 0] (argZ m c) padVal pads_S2049x8193_S2049x10240_000_020470 h_S_ := by
  have e : padZ m c = pad S2049x10240 ![0, 0] ![0, 2047] ![0, 0] (W2 (F := Ideal) m c (Proc.devRef .tc main_arg0) : Vec Ideal S2049x8193 .f32) padVal pads_S2049x8193_S2049x10240_000_020470 h_S_ := by
    show StableHlo.after hostOps1_1 (StableHlo.after hostOps1 (W2 (F := Ideal) m c)) (Proc.devRef .tc main_v5) = _
    after_results
    rfl
  rw [e, w2_argZ]

/-- A 2049 x 8193 array padded with 2047 columns of the value `v`: the array inside, `v` beyond. -/
theorem pad_at (x : Vec Ideal S2049x8193 .f32) (v : Vec Ideal S_ .f32) (s : Fin 2049) (j : Fin 10240) :
    pad S2049x10240 ![0, 0] ![0, 2047] ![0, 0] x v pads_S2049x8193_S2049x10240_000_020470 h_S_ (ix2 s j)
      = if h : j.val < 8193 then x (ix2 s (⟨j.val, h⟩ : Fin 8193)) else v ix0 := by
  by_cases h : j.val < 8193
  · rw [dif_pos h]
    exact pad_apply_of_inside ![0, 0] ![0, 2047] ![0, 0] x v pads_S2049x8193_S2049x10240_000_020470 h_S_ (ix2 s j) (ix2 s (⟨j.val, h⟩ : Fin 8193))
      (fun a => match a with
        | ⟨0, _⟩ => by show s.val = 0 + s.val * (0 + 1); omega
        | ⟨1, _⟩ => by show j.val = 0 + j.val * (0 + 1); omega)
  · rw [dif_neg h]
    refine (pad_apply_of_not_inside ![0, 0] ![0, 2047] ![0, 0] x v pads_S2049x8193_S2049x10240_000_020470 h_S_ (ix2 s j) (1 : Fin 2) ?_).trans ?_
    · show ¬(0 ≤ j.val ∧ (j.val - 0) % (0 + 1) = 0 ∧ (j.val - 0) / (0 + 1) < 8193)
      omega
    · exact congrArg v (eq_ix0 _)

/-- The integer 0 converted is the real number 0. -/
theorem padVal_at : padVal ix0 = 0 := by
  show ((((0#32 : BitVec 32).toInt : ℤ) : ℝ) : EReal) = 0
  simp

/-! ## The two operands of region 1 as the specification's functions -/

/-- Row 0 of the stacked pair: the last column of Z pushed through Q and then K. -/
theorem stk_row0 (c : Dev nD) (s : Fin 2049) :
    stk m c (ix2 (0 : Fin 2) s)
      = Cert.Spec.kz (fun r j => argZ m c (ix2 r j)) (fun a s => argK m c (ix2 a s)) (fun a s => argQ m c (ix2 a s)) s := by
  rw [stk_eq]
  refine (M_row0 (V1 (F := Ideal) m) c s).trans ?_
  unfold Cert.Spec.kz Cert.Spec.qz Cert.Spec.zlast
  rw [q_eq, k_eq, rowZ_eq]
  refine Finset.sum_congr rfl fun p _ => ?_
  congr 1
  refine Finset.sum_congr rfl fun r _ => ?_
  rw [lastCol_at]

/-- Row 1 of the stacked pair: the last row of V. -/
theorem stk_row1 (c : Dev nD) (s : Fin 2049) :
    stk m c (ix2 (1 : Fin 2) s) = Cert.Spec.vlast (fun a s => argV m c (ix2 a s)) s := by
  rw [stk_eq]
  refine (M_row1 (V1 (F := Ideal) m) c s).trans ?_
  unfold Cert.Spec.vlast
  rw [rowV_eq, lastRow_at]

/-- The stacked pair is the specification's `stack`. -/
theorem stk_at (c : Dev nD) (a : Fin 2) (s : Fin 2049) :
    stk m c (ix2 a s)
      = Cert.Spec.stack (fun r j => argZ m c (ix2 r j)) (fun a s => argV m c (ix2 a s)) (fun a s => argK m c (ix2 a s))
          (fun a s => argQ m c (ix2 a s)) a s := by
  unfold Cert.Spec.stack
  by_cases h : a = 0
  · subst h
    rw [if_pos rfl]
    exact stk_row0 m c s
  · have h1 : a = 1 := by
      apply Fin.ext
      have h2 := a.isLt
      have h3 : a.val ≠ 0 := fun e => h (Fin.ext e)
      show a.val = 1
      omega
    subst h1
    rw [if_neg h]
    exact stk_row1 m c s

/-- The padded array is the specification's `zpad`. -/
theorem padZ_at (c : Dev nD) (s : Fin 2049) (j : Fin 10240) :
    padZ m c (ix2 s j) = Cert.Spec.zpad (fun r j => argZ m c (ix2 r j)) s j := by
  rw [padZ_eq, pad_at]
  unfold Cert.Spec.zpad
  by_cases h : j.val < 8193
  · rw [dif_pos h, dif_pos h]
  · rw [dif_neg h, dif_neg h, padVal_at]

end Host

/-! ## The program's result -/

open Host in
/-- The scalar the kernel program returns is `Spec.kernelVal` of the four arguments as launched. -/
theorem kernel_value (m : (ℓ : Loc nD τ sig) → Buf (Elt Ideal) ℓ) (c : Dev nD) :
      (W6 (F := Ideal) m c (Proc.devRef .tc main_v7) : Vec Ideal S_ .f32) ix0
        = Cert.Spec.kernelVal (fun r j => (m ((c : Thread nD τ).loc main_arg0) : Vec Ideal S2049x8193 .f32) (ix2 r j))
            (fun a s => (m ((c : Thread nD τ).loc main_arg1) : Vec Ideal S2049x2049 .f32) (ix2 a s))
            (fun a s => (m ((c : Thread nD τ).loc main_arg2) : Vec Ideal S2049x2049 .f32) (ix2 a s))
            (fun a s => (m ((c : Thread nD τ).loc main_arg3) : Vec Ideal S2049x2049 .f32) (ix2 a s)) := by
  refine (out_at m c).trans ?_
  refine (res_at m c).trans ?_
  unfold Cert.Spec.kernelVal
  have eM : (fun a s => stk m c (ix2 a s))
      = Cert.Spec.stack (fun r j => argZ m c (ix2 r j)) (fun a s => argV m c (ix2 a s)) (fun a s => argK m c (ix2 a s))
          (fun a s => argQ m c (ix2 a s)) := funext fun a => funext fun s => stk_at m c a s
  have eZ : (fun s j => padZ m c (ix2 s j)) = Cert.Spec.zpad (fun r j => argZ m c (ix2 r j)) :=
    funext fun s => funext fun j => padZ_at m c s j
  rw [eM, eZ, Cert.Spec.accOf_stack]

end Cert.KernelIdeal.KVal

end
-- ==== Proof.RefValue.lean ====
/-
  The reference's result, entry by entry, over the four input matrices read as arrays of extended reals
  (Z = argument 0, 2049 x 8193; V, K, Q = arguments 1, 2, 3, each 2049 x 2049).

  The reference forms the three products
      VZ[a, k] = Σ_s V[a, s] · Z[s, k],   KZ[p, k] = Σ_s K[p, s] · Z[s, k],   QZ[p, k] = Σ_s Q[p, s] · Z[s, k],
  transposes KZ and multiplies it by QZ, so that entry (i, j) of that product is the Gram entry
      G[i, j] = Σ_p KZ[p, i] · QZ[p, j],
  divides every entry of G by the literal 8192.0, multiplies VZ by the quotient,
      A[a, c] = Σ_k VZ[a, k] · (G[k, c] / 8192),
  keeps the one entry A[2048, 8192] as a 1 x 1 array and reshapes it to a scalar. A reshape keeps the row-major position, and
  the only position of a 1 x 1 array and of a scalar is 0, so the scalar is that entry:
      result = Σ_k VZ[2048, k] · (G[k, 8192] / 8192) = Spec.refVal.

  Each stage below is read at an index written by its coordinates; the index functions of the stages, applied to such an
  index, are again indices written by coordinates.
-/
import proofs.«103635_j55800215109664_1_alg».proof.Proof.Gen.ReferenceIdeal.Run
import proofs.«103635_j55800215109664_1_alg».proof.Proof.Gen.ReferenceIdeal.Read
import proofs.«103635_j55800215109664_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The index functions of the stages at coordinates -/

theorem lidx_v0 (a : Fin 2049) (k : Fin 8193) (s : Fin 2049) :
    lidx_main_v0 (ix2 a k : S2049x8193.Idx) s = (ix2 a s : S2049x2049.Idx) :=
  funext fun d => Fin.ext (by match d with | ⟨0, _⟩ => rfl | ⟨1, _⟩ => rfl)

theorem ridx_v0 (a : Fin 2049) (k : Fin 8193) (s : Fin 2049) :
    ridx_main_v0 (ix2 a k : S2049x8193.Idx) s = (ix2 s k : S2049x8193.Idx) :=
  funext fun d => Fin.ext (by match d with | ⟨0, _⟩ => rfl | ⟨1, _⟩ => rfl)

theorem lidx_v1 (a : Fin 2049) (k : Fin 8193) (s : Fin 2049) :
    lidx_main_v1 (ix2 a k : S2049x8193.Idx) s = (ix2 a s : S2049x2049.Idx) :=
  funext fun d => Fin.ext (by match d with | ⟨0, _⟩ => rfl | ⟨1, _⟩ => rfl)

theorem ridx_v1 (a : Fin 2049) (k : Fin 8193) (s : Fin 2049) :
    ridx_main_v1 (ix2 a k : S2049x8193.Idx) s = (ix2 s k : S2049x8193.Idx) :=
  funext fun d => Fin.ext (by match d with | ⟨0, _⟩ => rfl | ⟨1, _⟩ => rfl)

theorem lidx_v2 (a : Fin 2049) (k : Fin 8193) (s : Fin 2049) :
    lidx_main_v2 (ix2 a k : S2049x8193.Idx) s = (ix2 a s : S2049x2049.Idx) :=
  funext fun d => Fin.ext (by match d with | ⟨0, _⟩ => rfl | ⟨1, _⟩ => rfl)

theorem ridx_v2 (a : Fin 2049) (k : Fin 8193) (s : Fin 2049) :
    ridx_main_v2 (ix2 a k : S2049x8193.Idx) s = (ix2 s k : S2049x8193.Idx) :=
  funext fun d => Fin.ext (by match d with | ⟨0, _⟩ => rfl | ⟨1, _⟩ => rfl)

theorem idx_v3 (k : Fin 8193) (p : Fin 2049) :
    idx_main_v3 (ix2 k p : S8193x2049.Idx) = (ix2 p k : S2049x8193.Idx) :=
  funext fun d => Fin.ext (by match d with | ⟨0, _⟩ => rfl | ⟨1, _⟩ => rfl)

theorem lidx_v4 (i j : Fin 8193) (p : Fin 2049) :
    lidx_main_v4 (ix2 i j : S8193x8193.Idx) p = (ix2 i p : S8193x2049.Idx) :=
  funext fun d => Fin.ext (by match d with | ⟨0, _⟩ => rfl | ⟨1, _⟩ => rfl)

theorem ridx_v4 (i j : Fin 8193) (p : Fin 2049) :
    ridx_main_v4 (ix2 i j : S8193x8193.Idx) p = (ix2 p j : S2049x8193.Idx) :=
  funext fun d => Fin.ext (by match d with | ⟨0, _⟩ => rfl | ⟨1, _⟩ => rfl)

theorem lidx_v7 (a : Fin 2049) (c k : Fin 8193) :
    lidx_main_v7 (ix2 a c : S2049x8193.Idx) k = (ix2 a k : S2049x8193.Idx) :=
  funext fun d => Fin.ext (by match d with | ⟨0, _⟩ => rfl | ⟨1, _⟩ => rfl)

theorem ridx_v7 (a : Fin 2049) (c k : Fin 8193) :
    ridx_main_v7 (ix2 a c : S2049x8193.Idx) k = (ix2 k c : S8193x8193.Idx) :=
  funext fun d => Fin.ext (by match d with | ⟨0, _⟩ => rfl | ⟨1, _⟩ => rfl)

theorem idx_v8 :
    idx_main_v8 (ix2 (0 : Fin 1) (0 : Fin 1) : S1x1.Idx)
      = (ix2 (⟨2048, by decide⟩ : Fin 2049) (⟨8192, by decide⟩ : Fin 8193) : S2049x8193.Idx) :=
  funext fun d => Fin.ext (by match d with | ⟨0, _⟩ => rfl | ⟨1, _⟩ => rfl)

/-! ## The stages at coordinates -/

section
variable (x0 : (⟨S2049x8193, .f32⟩ : BufTy).Contents (Elt Ideal)) (x1 x2 x3 : (⟨S2049x2049, .f32⟩ : BufTy).Contents (Elt Ideal))

/-- (V Z)[a, k]. -/
theorem v0_at (a : Fin 2049) (k : Fin 8193) :
    Read.val_main_v0 (F := Ideal) x0 x1 (ix2 a k)
      = Cert.Spec.vz (fun r j => x0 (ix2 r j)) (fun a s => x1 (ix2 a s)) a k := by
  rw [val_main_v0_apply]
  unfold Cert.Spec.vz
  exact Finset.sum_congr rfl fun s _ => by rw [lidx_v0, ridx_v0]

/-- (K Z)[p, k]. -/
theorem v1_at (p : Fin 2049) (k : Fin 8193) :
    Read.val_main_v1 (F := Ideal) x0 x2 (ix2 p k)
      = Cert.Spec.kzm (fun r j => x0 (ix2 r j)) (fun a s => x2 (ix2 a s)) p k := by
  rw [val_main_v1_apply]
  unfold Cert.Spec.kzm
  exact Finset.sum_congr rfl fun s _ => by rw [lidx_v1, ridx_v1]

/-- (Q Z)[p, k]. -/
theorem v2_at (p : Fin 2049) (k : Fin 8193) :
    Read.val_main_v2 (F := Ideal) x0 x3 (ix2 p k)
      = Cert.Spec.qzm (fun r j => x0 (ix2 r j)) (fun a s => x3 (ix2 a s)) p k := by
  rw [val_main_v2_apply]
  unfold Cert.Spec.qzm
  exact Finset.sum_congr rfl fun s _ => by rw [lidx_v2, ridx_v2]

/-- The product of the transposed K Z with Q Z is the Gram matrix: entry (i, j) is Σ_p (K Z)[p, i] · (Q Z)[p, j]. -/
theorem v4_at (i j : Fin 8193) :
    Read.val_main_v4 (F := Ideal) x0 x2 x3 (ix2 i j)
      = Cert.Spec.gram (fun r j => x0 (ix2 r j)) (fun a s => x2 (ix2 a s)) (fun a s => x3 (ix2 a s)) i j := by
  rw [val_main_v4_apply]
  unfold Cert.Spec.gram
  exact Finset.sum_congr rfl fun p _ => by
    rw [lidx_v4, ridx_v4, val_main_v3_apply, idx_v3, v1_at, v2_at]

/-- The Gram entry divided by the literal 8192.0. -/
theorem v6_at (i j : Fin 8193) :
    Read.val_main_v6 (F := Ideal) x0 x2 x3 (ix2 i j)
      = Ideal.div (Cert.Spec.gram (fun r j => x0 (ix2 r j)) (fun a s => x2 (ix2 a s)) (fun a s => x3 (ix2 a s)) i j)
          (Ideal.ofBits .f32 0x46000000#32) := by
  rw [val_main_v6_apply, v4_at, val_main_v5_apply, val_main_cst_apply, Ideal.hostDivf_def, Ideal.ofBits_def]

/-- The scalar is the one entry of the 1 x 1 slice: both sit at row-major position 0. -/
theorem v9_at :
    Read.val_main_v9 (F := Ideal) x0 x1 x2 x3 ValueIdx.ix0
      = Read.val_main_v8 (F := Ideal) x0 x1 x2 x3 (ix2 (0 : Fin 1) (0 : Fin 1)) := by
  unfold Read.val_main_v9
  refine shapeCast_apply _ shapeCasts_S1x1_S_ ix0 (ix2 (0 : Fin 1) (0 : Fin 1)) ?_
  rw [Shape.rowMajor_val_two]
  have h := (S_.rowMajor ix0).isLt
  have hn : S_.numel = 1 := by decide
  show 0 * _ + 0 = _
  omega

end

/-- The reference returns Σ_k (V Z)[2048, k] · (((K Z)ᵀ (Q Z))[k, 8192] / 8192). -/
theorem ref_value (x0 : (⟨S2049x8193, .f32⟩ : BufTy).Contents (Elt Ideal)) (x1 x2 x3 : (⟨S2049x2049, .f32⟩ : BufTy).Contents (Elt Ideal)) :
    Read.val_main_v9 (F := Ideal) x0 x1 x2 x3 ValueIdx.ix0
      = Cert.Spec.refVal (fun r j => x0 (ValueIdx.ix2 r j)) (fun a s => x1 (ValueIdx.ix2 a s)) (fun a s => x2 (ValueIdx.ix2 a s)) (fun a s => x3 (ValueIdx.ix2 a s)) := by
  rw [v9_at, val_main_v8_apply, idx_v8, val_main_v7_apply]
  unfold Cert.Spec.refVal
  exact Finset.sum_congr rfl fun k _ => by rw [lidx_v7, ridx_v7, v0_at, v6_at]

end Cert.ReferenceIdeal.RefValue

end
-- ==== Proof.Bridge.lean ====
/-
  The kernel's closed formula and the reference's closed formula are the same real number on finite inputs.

  Finiteness is used once, at the start: every input entry is the image of a real, and every operation of the two formulas
  (finite sums, products, the division by the literal 8192) sends images of reals to images of reals, so each side is the
  image of one real expression and the claim becomes an identity in the field of reals (in the extended reals the
  distributive law used below fails at the infinities).  In the reals three laws join the sides.  Exchanging two finite sums,
  with distributivity and commutativity, turns the kernel's row a[j] = Σ_s (Σ_p (Σ_r Z[r,8192] Q[p,r]) K[p,s]) Z[s,j] into the
  Gram entry Σ_p (K Z)[p,j] (Q Z)[p,8192].  The map (t, l) ↦ 2048 t + l is a bijection from 5 x 2048 onto the 10240 padded
  columns, of which those from 8193 on carry a zero factor.  Dividing each term by 8192 is scaling the sum by 1/8192, the value
  of the kernel's literal.
-/
import proofs.«103635_j55800215109664_1_alg».proof.Proof.Spec
import Mathlib.Data.EReal.Basic
import Mathlib.Data.Fintype.BigOperators
import Mathlib.Algebra.BigOperators.Fin
import Mathlib.Algebra.BigOperators.Ring.Finset
import Mathlib.Algebra.BigOperators.Group.Finset.Sigma
import Mathlib.Logic.Equiv.Fin.Basic
import Mathlib.Tactic.Ring
import Mathlib.Tactic.NormNum

noncomputable section

namespace Cert.Spec

open Idealize.ShloMosaic
open scoped BigOperators

/-! ## The two literals -/

/-- The kernel's scale, the f32 pattern of 2⁻¹³, denotes the real 1/8192. -/
theorem ofBits_inv8192 : Ideal.ofBits .f32 0x39000000#32 = ((1 / 8192 : ℝ) : EReal) := by
  simp [Ideal.ofBits, Ideal.ieee, -EReal.coe_mul]; norm_num

/-- The reference's divisor, the f32 pattern of 8192.0, denotes the real 8192. -/
theorem ofBits_8192 : Ideal.ofBits .f32 0x46000000#32 = ((8192 : ℝ) : EReal) := by
  simp [Ideal.ofBits, Ideal.ieee, -EReal.coe_mul]; norm_num

namespace Bridge

/-! ## Sums of images of reals -/

/-- The image of a finite sum of reals is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running total after the last tile is the sum of the five tiles. -/
theorem acc_four (Z : Fin 2049 → Fin 8193 → EReal) (Vm K Q : Fin 2049 → Fin 2049 → EReal) :
    acc Z Vm K Q 4 (by decide) = ∑ t : Fin 5, tileSum Z Vm K Q t := by
  rw [Fin.sum_univ_five]; rfl

/-! ## The same formulas over the reals -/

section Reals

variable (z : Fin 2049 → Fin 8193 → ℝ) (v k q : Fin 2049 → Fin 2049 → ℝ)

/-- The last column of `z` against the rows of `q`. -/
def qzR (p : Fin 2049) : ℝ := ∑ r : Fin 2049, z r ⟨8192, by decide⟩ * q p r
/-- That vector against the columns of `k`. -/
def kzR (s : Fin 2049) : ℝ := ∑ p : Fin 2049, qzR z q p * k p s
/-- `z` with zero columns appended. -/
def zpadR (s : Fin 2049) (j : Fin 10240) : ℝ := if h : j.val < 8193 then z s ⟨j.val, h⟩ else 0
/-- Row 0 of the 2 x 10240 product. -/
def rowAR (j : Fin 10240) : ℝ := ∑ s : Fin 2049, kzR z k q s * zpadR z s j
/-- Row 1 of the 2 x 10240 product. -/
def rowBR (j : Fin 10240) : ℝ := ∑ s : Fin 2049, v ⟨2048, by decide⟩ s * zpadR z s j
/-- One tile's contribution. -/
def tileSumR (t : Fin 5) : ℝ := ∑ l : Fin 2048, rowAR z k q (col t l) * rowBR z v (col t l)
/-- (v z)[a, c]. -/
def vzR (a : Fin 2049) (c : Fin 8193) : ℝ := ∑ s : Fin 2049, v a s * z s c
/-- (k z)[p, c]. -/
def kzmR (p : Fin 2049) (c : Fin 8193) : ℝ := ∑ s : Fin 2049, k p s * z s c
/-- (q z)[p, c]. -/
def qzmR (p : Fin 2049) (c : Fin 8193) : ℝ := ∑ s : Fin 2049, q p s * z s c
/-- ((k z)ᵀ (q z))[i, j]. -/
def gramR (i j : Fin 8193) : ℝ := ∑ p : Fin 2049, kzmR z k p i * qzmR z q p j

/-! ### Each formula on images of reals is the image of its real twin -/

theorem qz_coe (p : Fin 2049) :
    qz (fun r j => (z r j : EReal)) (fun a s => (q a s : EReal)) p = (qzR z q p : EReal) := by
  simp only [qz, zlast, qzR, coe_sum, EReal.coe_mul]

theorem kz_coe (s : Fin 2049) :
    kz (fun r j => (z r j : EReal)) (fun a s => (k a s : EReal)) (fun a s => (q a s : EReal)) s = (kzR z k q s : EReal) := by
  simp only [kz, kzR, qz_coe, coe_sum, EReal.coe_mul]

theorem zpad_coe (s : Fin 2049) (j : Fin 10240) :
    zpad (fun r j => (z r j : EReal)) s j = (zpadR z s j : EReal) := by
  unfold zpad zpadR
  split_ifs <;> simp

theorem rowA_coe (j : Fin 10240) :
    rowA (fun r j => (z r j : EReal)) (fun a s => (k a s : EReal)) (fun a s => (q a s : EReal)) j
      = (rowAR z k q j : EReal) := by
  simp only [rowA, rowAR, kz_coe, zpad_coe, coe_sum, EReal.coe_mul]

theorem rowB_coe (j : Fin 10240) :
    rowB (fun r j => (z r j : EReal)) (fun a s => (v a s : EReal)) j = (rowBR z v j : EReal) := by
  simp only [rowB, vlast, rowBR, zpad_coe, coe_sum, EReal.coe_mul]

theorem tileSum_coe (t : Fin 5) :
    tileSum (fun r j => (z r j : EReal)) (fun a s => (v a s : EReal)) (fun a s => (k a s : EReal))
      (fun a s => (q a s : EReal)) t = (tileSumR z v k q t : EReal) := by
  simp only [tileSum, tileSumR, rowA_coe, rowB_coe, coe_sum, EReal.coe_mul]

theorem kernelVal_coe :
    kernelVal (fun r j => (z r j : EReal)) (fun a s => (v a s : EReal)) (fun a s => (k a s : EReal))
      (fun a s => (q a s : EReal)) = (((∑ t : Fin 5, tileSumR z v k q t) * (1 / 8192) : ℝ) : EReal) := by
  rw [kernelVal, acc_four, ofBits_inv8192]
  simp only [tileSum_coe, coe_sum, EReal.coe_mul]

theorem vz_coe (a : Fin 2049) (c : Fin 8193) :
    vz (fun r j => (z r j : EReal)) (fun a s => (v a s : EReal)) a c = (vzR z v a c : EReal) := by
  simp only [vz, vzR, coe_sum, EReal.coe_mul]

theorem kzm_coe (p : Fin 2049) (c : Fin 8193) :
    kzm (fun r j => (z r j : EReal)) (fun a s => (k a s : EReal)) p c = (kzmR z k p c : EReal) := by
  simp only [kzm, kzmR, coe_sum, EReal.coe_mul]

theorem qzm_coe (p : Fin 2049) (c : Fin 8193) :
    qzm (fun r j => (z r j : EReal)) (fun a s => (q a s : EReal)) p c = (qzmR z q p c : EReal) := by
  simp only [qzm, qzmR, coe_sum, EReal.coe_mul]

theorem gram_coe (i j : Fin 8193) :
    gram (fun r j => (z r j : EReal)) (fun a s => (k a s : EReal)) (fun a s => (q a s : EReal)) i j
      = (gramR z k q i j : EReal) := by
  simp only [gram, gramR, kzm_coe, qzm_coe, coe_sum, EReal.coe_mul]

theorem refVal_coe :
    refVal (fun r j => (z r j : EReal)) (fun a s => (v a s : EReal)) (fun a s => (k a s : EReal))
      (fun a s => (q a s : EReal))
      = ((∑ c : Fin 8193, vzR z v ⟨2048, by decide⟩ c * (gramR z k q c ⟨8192, by decide⟩ * (1 / 8192)) : ℝ) : EReal) := by
  rw [refVal]
  simp only [ofBits_8192, Ideal.div_coe (by norm_num : (8192 : ℝ) ≠ 0), vz_coe, gram_coe, coe_sum, EReal.coe_mul]

/-! ### The identity in the reals -/

/-- Exchanging two finite sums: Σ_s (Σ_p a_p m_ps) c_s = Σ_p (Σ_s m_ps c_s) a_p. -/
theorem sum_sum_mul_comm {ι κ : Type} [Fintype ι] [Fintype κ] (a : ι → ℝ) (m : ι → κ → ℝ) (c : κ → ℝ) :
    ∑ s, (∑ p, a p * m p s) * c s = ∑ p, (∑ s, m p s * c s) * a p := by
  simp only [Finset.sum_mul]
  rw [Finset.sum_comm]
  exact Finset.sum_congr rfl fun p _ => Finset.sum_congr rfl fun s _ => by ring

/-- The five tiles of 2048 columns are the 10240 columns: (t, l) ↦ 2048 t + l is a bijection. -/
theorem sum_tiles (F : Fin 10240 → ℝ) : ∑ t : Fin 5, ∑ l : Fin 2048, F (col t l) = ∑ j : Fin 10240, F j := by
  rw [← Fintype.sum_prod_type' (fun t l => F (col t l))]
  refine Fintype.sum_equiv (finProdFinEquiv (m := 5) (n := 2048)) _ _ fun x => ?_
  congr 1
  ext
  simp only [col, finProdFinEquiv, Equiv.coe_fn_mk]
  omega

/-- A function on the 10240 columns that vanishes from column 8193 on sums to its sum over the first 8193. -/
theorem sum_pad (F : Fin 10240 → ℝ) (hF : ∀ j : Fin 10240, 8193 ≤ j.val → F j = 0) :
    ∑ j : Fin 10240, F j = ∑ c : Fin 8193, F (Fin.castLE (by decide) c) := by
  refine (Fin.sum_univ_add (a := 8193) (b := 2047) F).trans ?_
  have h2 : ∑ i : Fin 2047, F (Fin.natAdd 8193 i) = 0 :=
    Finset.sum_eq_zero fun i _ => hF _ (by simp)
  rw [h2, add_zero]
  rfl

theorem zpadR_lt (s : Fin 2049) (c : Fin 8193) : zpadR z s (Fin.castLE (by decide) c) = z s c := by
  simp [zpadR]

theorem zpadR_ge (s : Fin 2049) (j : Fin 10240) (h : 8193 ≤ j.val) : zpadR z s j = 0 :=
  dif_neg (not_lt.mpr h)

/-- On an unpadded column the kernel's row 0 is the Gram entry against the last column. -/
theorem rowAR_lt (c : Fin 8193) : rowAR z k q (Fin.castLE (by decide) c) = gramR z k q c ⟨8192, by decide⟩ := by
  simp only [rowAR, zpadR_lt, kzR, gramR, kzmR]
  rw [sum_sum_mul_comm]
  refine Finset.sum_congr rfl fun p _ => ?_
  congr 1
  simp only [qzR, qzmR]
  exact Finset.sum_congr rfl fun r _ => mul_comm _ _

theorem rowAR_ge (j : Fin 10240) (h : 8193 ≤ j.val) : rowAR z k q j = 0 := by
  simp only [rowAR, zpadR_ge z _ j h, mul_zero, Finset.sum_const_zero]

/-- On an unpadded column the kernel's row 1 is the last row of v z. -/
theorem rowBR_lt (c : Fin 8193) : rowBR z v (Fin.castLE (by decide) c) = vzR z v ⟨2048, by decide⟩ c := by
  simp only [rowBR, zpadR_lt, vzR]

/-- The total over the five tiles is Σ_c G[c, 8192] (v z)[2048, c]. -/
theorem sum_tileSumR :
    ∑ t : Fin 5, tileSumR z v k q t
      = ∑ c : Fin 8193, gramR z k q c ⟨8192, by decide⟩ * vzR z v ⟨2048, by decide⟩ c :=
  calc ∑ t : Fin 5, tileSumR z v k q t
      = ∑ j : Fin 10240, rowAR z k q j * rowBR z v j := sum_tiles fun j => rowAR z k q j * rowBR z v j
    _ = ∑ c : Fin 8193, rowAR z k q (Fin.castLE (by decide) c) * rowBR z v (Fin.castLE (by decide) c) :=
        sum_pad _ fun j h => by rw [rowAR_ge z k q j h, zero_mul]
    _ = _ := Finset.sum_congr rfl fun c _ => by rw [rowAR_lt, rowBR_lt]

end Reals

end Bridge

/-! ## The bridge -/

open Bridge in
/-- On finite inputs the kernel's value is the reference's value. -/
theorem kernelVal_eq_refVal (Z : Fin 2049 → Fin 8193 → EReal) (Vm K Q : Fin 2049 → Fin 2049 → EReal)
    (hZ : ∀ r j, ∃ x : ℝ, Z r j = (x : EReal)) (hV : ∀ a s, ∃ x : ℝ, Vm a s = (x : EReal))
    (hK : ∀ a s, ∃ x : ℝ, K a s = (x : EReal)) (hQ : ∀ a s, ∃ x : ℝ, Q a s = (x : EReal)) :
    kernelVal Z Vm K Q = refVal Z Vm K Q := by
  choose z hz using hZ
  choose v hv using hV
  choose k hk using hK
  choose q hq using hQ
  obtain rfl : Z = fun r j => (z r j : EReal) := funext fun r => funext fun j => hz r j
  obtain rfl : Vm = fun a s => (v a s : EReal) := funext fun a => funext fun s => hv a s
  obtain rfl : K = fun a s => (k a s : EReal) := funext fun a => funext fun s => hk a s
  obtain rfl : Q = fun a s => (q a s : EReal) := funext fun a => funext fun s => hq a s
  rw [kernelVal_coe, refVal_coe, sum_tileSumR, Finset.sum_mul]
  congr 1
  exact Finset.sum_congr rfl fun c _ => by ring

end Cert.Spec

end
-- ==== Proof.Finite.lean ====
/-
  Under the precondition every input entry is a real number. The precondition is the conjunction, over the four inputs, of
  "every entry's absolute value is below +∞"; an extended real whose absolute value max(x, -x) is below +∞ is neither
  infinity, so it is a real.
-/
import proofs.«103635_j55800215109664_1_alg».proof.Pre_finite_inputs
import proofs.«103635_j55800215109664_1_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.Finite

open Idealize.ShloMosaic Cert.Pre_finite_inputs

/-- The rank-0 shape has one index. -/
instance : Subsingleton S_.Idx := ⟨fun a b => funext fun d => d.elim0⟩

/-- The word `0x7F800000` denotes +∞. -/
theorem ofBits_inf : Ideal.ofBits .f32 0x7F800000#32 = (⊤ : EReal) := by
  simp [Ideal.ofBits, Ideal.ieee]

/-- An extended real whose absolute value compares below +∞ is a real. -/
theorem real_of_abs_lt_inf (x : EReal)
    (e : Ideal.cmp .olt (max x (-x)) (Ideal.ofBits .f32 0x7F800000#32) = 1#1) : ∃ r : ℝ, x = (r : EReal) := by
  rw [ofBits_inf] at e
  have hlt : max x (-x) < ⊤ := by
    by_contra hn
    simp [Ideal.cmp, hn] at e
  induction x using EReal.rec with
  | bot => simp at hlt
  | top => simp at hlt
  | coe r => exact ⟨r, rfl⟩

/-- The precondition, opened: each of the four inputs has only real entries. -/
theorem entries_real (x0 : FVec Ideal S2049x8193 .f32) (x1 x2 x3 : FVec Ideal S2049x2049 .f32)
    (h : fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨ha, hb⟩, hc⟩, hd⟩ := h0
  refine ⟨fun i => ?_, fun i => ?_, fun i => ?_, fun i => ?_⟩
  · exact real_of_abs_lt_inf _ (Host.reduce_andi_all _ _ _ _ _ ha i)
  · exact real_of_abs_lt_inf _ (Host.reduce_andi_all _ _ _ _ _ hb i)
  · exact real_of_abs_lt_inf _ (Host.reduce_andi_all _ _ _ _ _ hc i)
  · exact real_of_abs_lt_inf _ (Host.reduce_andi_all _ _ _ _ _ hd i)

end Cert.Finite

end
-- ==== Proof.lean ====
/-
  The certificate: a kernel that reads ONE entry of A = (V Z) ((K Z)ᵀ (Q Z) / 8192) without forming the 8193 x 8193 Gram
  matrix, against the reference that forms it.

  Picking the last row and the last column collapses the product to vector contractions: the kernel's first region pushes the
  last column of Z through Q and K into one row, stacks it over the last row of V, and its second region multiplies that
  2 x 2049 matrix by Z (padded with zero columns to five tiles of 2048), accumulates the entrywise product of the two resulting
  rows over the tiles, and scales by 2⁻¹³. Over the reals this is the reference's entry: the inner sums exchange
  (Σ_s (Σ_p q_p K[p,s]) Z[s,j] = Σ_p q_p (K Z)[p,j]), the padded columns contribute zero, and dividing each term by 8192 is scaling
  the sum by 2⁻¹³. Exchanging sums and pulling a factor out of a sum need every entry finite, which is the precondition.

  The three frames: both kernel programs run as six segments (host operations, region 0, host operations twice, region 1, a
  reshape), region 1 carrying its 1 x 1 accumulator in the region's invariant; the reference is a straight line of host
  operations. The idealization rewrote nothing, so `preserves` is trivial.
-/
import proofs.«103635_j55800215109664_1_alg».proof.Defs
import proofs.«103635_j55800215109664_1_alg».proof.Proof.Gen.Kernel
import proofs.«103635_j55800215109664_1_alg».proof.Proof.Gen.KernelIdeal
import proofs.«103635_j55800215109664_1_alg».proof.Proof.Gen.ReferenceIdeal
import proofs.«103635_j55800215109664_1_alg».proof.Proof.Gen.Pre_finite_inputs
import proofs.«103635_j55800215109664_1_alg».proof.Proof.RunW
import proofs.«103635_j55800215109664_1_alg».proof.Proof.Run
import proofs.«103635_j55800215109664_1_alg».proof.Proof.KHost
import proofs.«103635_j55800215109664_1_alg».proof.Proof.RefValue
import proofs.«103635_j55800215109664_1_alg».proof.Proof.Bridge
import proofs.«103635_j55800215109664_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

open Cert.KernelIdeal Cert.KernelIdeal.Hand in
/-- From memories that agree on the four inputs, all finite, the reference's result is the kernel program's: both are the
    closed formulas of the specification, which agree over the reals. -/
theorem values_agree (m : (ℓ : Loc Cert.KernelIdeal.nD Cert.KernelIdeal.τ Cert.KernelIdeal.sig) → Buf (Elt Ideal) ℓ)
    (hpre : Cert.Pre_KernelIdeal m) (c : Dev Cert.KernelIdeal.nD)
    (x0 : (⟨Cert.ReferenceIdeal.S2049x8193, .f32⟩ : BufTy).Contents (Elt Ideal))
    (x1 x2 x3 : (⟨Cert.ReferenceIdeal.S2049x2049, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3)) :
    Cert.ReferenceIdeal.Read.val_main_v9 (F := Ideal) x0 x1 x2 x3
      = W6 (F := Ideal) m c (Proc.devRef .tc Cert.KernelIdeal.main_v7) := by
  obtain ⟨r0, r1, r2, r3⟩ := Cert.Finite.entries_real _ _ _ _ (hpre c)
  funext i
  rw [ValueIdx.eq_ix0 i]
  refine (Cert.ReferenceIdeal.RefValue.ref_value x0 x1 x2 x3).trans ?_
  refine Eq.trans ?_ (Cert.KernelIdeal.KVal.kernel_value m c).symm
  subst h0 h1 h2 h3
  exact (Cert.Spec.kernelVal_eq_refVal _ _ _ _ (fun r j => r0 _) (fun a s => r1 _) (fun a s => r2 _) (fun a s => r3 _)).symm

open Cert.KernelIdeal Cert.KernelIdeal.Hand in
/-- At the exact instance the two programs, run from memories that agree on the inputs, end with equal results and unchanged
    arguments. -/
theorem algebraic : Cert.algebraic_KernelIdeal_ReferenceIdeal := by
  intro m ρ m' ρ' hpre hagree
  refine ⟨fun c => W6 (F := Ideal) m c (Proc.devRef .tc Cert.KernelIdeal.main_v7), ?_, ?_⟩
  · refine (θ_run Cert.KernelIdeal.defs _ _).mono (fun r h c => ⟨h c _ (mem_uc main_v7 (by decide)), ?_, ?_, ?_, ?_⟩) (run_all m ρ)
    · exact (h c _ (mem_uc main_arg0 (by decide))).trans (W6_main_arg0 m c)
    · exact (h c _ (mem_uc main_arg1 (by decide))).trans (W6_main_arg1 m c)
    · exact (h c _ (mem_uc main_arg2 (by decide))).trans (W6_main_arg2 m c)
    · exact (h c _ (mem_uc main_arg3 (by decide))).trans (W6_main_arg3 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq]
    exact values_agree m hpre c _ _ _ _ (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
